-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x2048 : Shape := ⟨3, ![32, 128, 2048]⟩
abbrev S32x128x5 : Shape := ⟨3, ![32, 128, 5]⟩
abbrev S8192 : Shape := ⟨1, ![8192]⟩
abbrev S2048x128 : Shape := ⟨2, ![2048, 128]⟩
abbrev S128 : Shape := ⟨1, ![128]⟩
abbrev S5x128 : Shape := ⟨2, ![5, 128]⟩
abbrev S256x128 : Shape := ⟨2, ![256, 128]⟩
abbrev S_ : Shape := ⟨0, ![]⟩

class Facts : Prop where
  bcast_S_S32x128x2048 : S_.BroadcastsInDim S32x128x2048 (![] : Fin 0 → Fin S32x128x2048.rank)
  reducesTo_S32x128x2048_S_d0_1_2 : S32x128x2048.ReducesTo [0, 1, 2] S_
  h_S_ : 0 < S_.numel
  bcast_S_S32x128x5 : S_.BroadcastsInDim S32x128x5 (![] : Fin 0 → Fin S32x128x5.rank)
  reducesTo_S32x128x5_S_d0_1_2 : S32x128x5.ReducesTo [0, 1, 2] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_
  bcast_S_S256x128 : S_.BroadcastsInDim S256x128 (![] : Fin 0 → Fin S256x128.rank)
  reducesTo_S256x128_S_d0_1 : S256x128.ReducesTo [0, 1] S_
  bcast_S_S8192 : S_.BroadcastsInDim S8192 (![] : Fin 0 → Fin S8192.rank)
  reducesTo_S8192_S_d0 : S8192.ReducesTo [0] S_

variable [Facts]

def fn_part3 {F : FTy → Type} [FloatOps F] (main_v45 : IVec S_ 1) (main_v50 : IVec S8192 1) : IVec S_ 1 :=
  let main_c_19 : IVec S_ 1 := constantI S_ 1 1#1
  let main_v51 : IVec S_ 1 := (fun x v => Host.reduce IntOp.andi x v reducesTo_S8192_S_d0 h_S_) main_v50 main_c_19
  let main_v52 : IVec S_ 1 := andi main_v45 main_v51
  main_v52

def fn_part2 {F : FTy → Type} [FloatOps F] (main_arg2 : IVec S8192 32) (main_arg3 : IVec S8192 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S8192 32 := broadcastInDim S8192 ![] bcast_S_S8192 main_c_14
  let main_v40 : IVec S8192 1 := cmpi .sge main_arg2 main_v39
  let main_c_15 : IVec S_ 32 := constantI S_ 32 128#32
  let main_v41 : IVec S8192 32 := broadcastInDim S8192 ![] bcast_S_S8192 main_c_15
  let main_v42 : IVec S8192 1 := cmpi .slt main_arg2 main_v41
  let main_v43 : IVec S8192 1 := andi main_v40 main_v42
  let main_c_16 : IVec S_ 1 := constantI S_ 1 1#1
  let main_v44 : IVec S_ 1 := (fun x v => Host.reduce IntOp.andi x v reducesTo_S8192_S_d0 h_S_) main_v43 main_c_16
  let main_v45 : IVec S_ 1 := andi main_v38 main_v44
  let main_c_17 : IVec S_ 32 := constantI S_ 32 0#32
  let main_v46 : IVec S8192 32 := broadcastInDim S8192 ![] bcast_S_S8192 main_c_17
  let main_v47 : IVec S8192 1 := cmpi .sge main_arg3 main_v46
  let main_c_18 : IVec S_ 32 := constantI S_ 32 128#32
  let main_v48 : IVec S8192 32 := broadcastInDim S8192 ![] bcast_S_S8192 main_c_18
  let main_v49 : IVec S8192 1 := cmpi .slt main_arg3 main_v48
  let main_v50 : IVec S8192 1 := andi main_v47 main_v49
  fn_part3 (F := F) main_v45 main_v50

def fn_part1 {F : FTy → Type} [FloatOps F] (main_arg2 : IVec S8192 32) (main_arg3 : IVec S8192 32) (main_arg6 : FVec F S5x128 .f32) (main_arg7 : FVec F S128 .f32) (main_arg8 : FVec F S256x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg2 main_arg3 main_arg9 main_v33

def fn {F : FTy → Type} [FloatOps F] (main_arg0 : FVec F S32x128x2048 .f32) (main_arg1 : FVec F S32x128x5 .f32) (main_arg2 : IVec S8192 32) (main_arg3 : IVec S8192 32) (main_arg4 : FVec F S2048x128 .f32) (main_arg5 : FVec F S128 .f32) (main_arg6 : FVec F S5x128 .f32) (main_arg7 : FVec F S128 .f32) (main_arg8 : FVec F S256x128 .f32) (main_arg9 : FVec F S128 .f32) : IVec S_ 1 :=
  let main_v0 : FVec F S32x128x2048 .f32 := Host.absf main_arg0
  let main_cst : FVec F S_ .f32 := constant S_ .f32 0x7F800000#32
  let main_v1 : FVec F S32x128x2048 .f32 := broadcastInDim S32x128x2048 ![] bcast_S_S32x128x2048 main_cst
  let main_v2 : IVec S32x128x2048 1 := cmpf .olt main_v0 main_v1
  let main_c : IVec S_ 1 := constantI S_ 1 1#1
  let main_v3 : IVec S_ 1 := (fun x v => Host.reduce IntOp.andi x v reducesTo_S32x128x2048_S_d0_1_2 h_S_) main_v2 main_c
  let main_v4 : FVec F S32x128x5 .f32 := Host.absf main_arg1
  let main_cst_0 : FVec F S_ .f32 := constant S_ .f32 0x7F800000#32
  let main_v5 : FVec F S32x128x5 .f32 := broadcastInDim S32x128x5 ![] bcast_S_S32x128x5 main_cst_0
  let main_v6 : IVec S32x128x5 1 := cmpf .olt main_v4 main_v5
  let main_c_1 : IVec S_ 1 := constantI S_ 1 1#1
  let main_v7 : IVec S_ 1 := (fun x v => Host.reduce IntOp.andi x v reducesTo_S32x128x5_S_d0_1_2 h_S_) main_v6 main_c_1
  let main_v8 : IVec S_ 1 := andi main_v3 main_v7
  let main_v9 : FVec F S2048x128 .f32 := Host.absf main_arg4
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_v13 main_v16
-- ==== Kernel.lean ====
abbrev S32x128x2048 : Shape := ⟨3, ![32, 128, 2048]⟩
abbrev S32x128x5 : Shape := ⟨3, ![32, 128, 5]⟩
abbrev S8192 : Shape := ⟨1, ![8192]⟩
abbrev S2048x128 : Shape := ⟨2, ![2048, 128]⟩
abbrev S128 : Shape := ⟨1, ![128]⟩
abbrev S5x128 : Shape := ⟨2, ![5, 128]⟩
abbrev S256x128 : Shape := ⟨2, ![256, 128]⟩
abbrev S128x128 : Shape := ⟨2, ![128, 128]⟩
abbrev S4096x2048 : Shape := ⟨2, ![4096, 2048]⟩
abbrev S4096x5 : Shape := ⟨2, ![4096, 5]⟩
abbrev S4096x128 : Shape := ⟨2, ![4096, 128]⟩
abbrev S512x2048 : Shape := ⟨2, ![512, 2048]⟩
abbrev S512x5 : Shape := ⟨2, ![512, 5]⟩
abbrev S512x128 : Shape := ⟨2, ![512, 128]⟩
abbrev S1x128 : Shape := ⟨2, ![1, 128]⟩
abbrev S32x128x128 : Shape := ⟨3, ![32, 128, 128]⟩
abbrev S32x8192x128 : Shape := ⟨3, ![32, 8192, 128]⟩
abbrev S1x128x128 : Shape := ⟨3, ![1, 128, 128]⟩
abbrev S1x8192x128 : Shape := ⟨3, ![1, 8192, 128]⟩
abbrev S2048 : Shape := ⟨1, ![2048]⟩
abbrev S2048x1 : Shape := ⟨2, ![2048, 1]⟩
abbrev S1x2048x128 : Shape := ⟨3, ![1, 2048, 128]⟩

abbrev nBuf : Space → Nat
  | .hbm => 21
  | .vmem => 25
  | .smem => 0
  | _ => 0

abbrev bufTy : (tb : Table) → Fin (tcTables nBuf tb) → BufTy
  | .hbm, ⟨0, _⟩ => ⟨S32x128x2048, .f32⟩
  | .hbm, ⟨1, _⟩ => ⟨S32x128x5, .f32⟩
  | .hbm, ⟨2, _⟩ => ⟨S8192, .i32⟩
  | .hbm, ⟨3, _⟩ => ⟨S8192, .i32⟩
  | .hbm, ⟨4, _⟩ => ⟨S2048x128, .f32⟩
  | .hbm, ⟨5, _⟩ => ⟨S128, .f32⟩
  | .hbm, ⟨6, _⟩ => ⟨S5x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S4096x2048, .f32⟩
  | .hbm, ⟨13, _⟩ => ⟨S4096x5, .f32⟩
  | .hbm, ⟨14, _⟩ => ⟨S4096x128, .f32⟩
  | .hbm, ⟨15, _⟩ => ⟨S4096x128, .bf16⟩
  | .hbm, ⟨16, _⟩ => ⟨S4096x128, .bf16⟩
  | .hbm, ⟨17, _⟩ => ⟨S32x128x128, .f32⟩
  | .hbm, ⟨18, _⟩ => ⟨S32x128x128, .bf16⟩
  | .hbm, ⟨19, _⟩ => ⟨S32x128x128, .bf16⟩
  | .hbm, ⟨20, _⟩ => ⟨S32x8192x128, .f32⟩
  | .local _ .vmem, ⟨0, _⟩ => ⟨S512x2048, .f32⟩
  | .local _ .vmem, ⟨1, _⟩ => ⟨S512x2048, .f32⟩
  | .local _ .vmem, ⟨2, _⟩ => ⟨S512x5, .f32⟩
  | .local _ .vmem, ⟨3, _⟩ => ⟨S512x5, .f32⟩
  | .local _ .vmem, ⟨4, _⟩ => ⟨S2048x128, .f32⟩
  | .local _ .vmem, ⟨5, _⟩ => ⟨S128, .f32⟩
  | .local _ .vmem, ⟨6, _⟩ => ⟨S5x128, .f32⟩
  | .local _ .vmem, ⟨7, _⟩ => ⟨S128, .f32⟩
  | .local _ .vmem, ⟨8, _⟩ => ⟨S128x128, .f32⟩
  | .local _ .vmem, ⟨9, _⟩ => ⟨S128x128, .f32⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S1x128x128, .bf16⟩
  | .local _ .vmem, ⟨17, _⟩ => ⟨S1x128x128, .bf16⟩
  | .local _ .vmem, ⟨18, _⟩ => ⟨S1x128x128, .bf16⟩
  | .local _ .vmem, ⟨19, _⟩ => ⟨S1x128x128, .bf16⟩
  | .local _ .vmem, ⟨20, _⟩ => ⟨S8192, .i32⟩
  | .local _ .vmem, ⟨21, _⟩ => ⟨S8192, .i32⟩
  | .local _ .vmem, ⟨22, _⟩ => ⟨S128, .f32⟩
  | .local _ .vmem, ⟨23, _⟩ => ⟨S1x8192x128, .f32⟩
  | .local _ .vmem, ⟨24, _⟩ => ⟨S1x8192x128, .f32⟩
  | _, _ => ⟨S32x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

@[reducible] def k1_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k1_mult1 (k1_t1 : Fin k1_t1_loop.trips) : BitVec 32 :=
  let c0_i32_8 : BitVec 32 := 0#32
  let c0_i32 : BitVec 32 := 0#32
  let c1_i32 : BitVec 32 := 1#32
  let arg7 : BitVec 32 := Scf.iv c0_i32 c1_i32 k1_t1
  let c1_i32_7 : BitVec 32 := 1#32
  let v7 : BitVec 32 := Scalar.muli arg7 c1_i32_7
  let v8 : BitVec 32 := Scalar.addi c0_i32_8 v7
  let c2048_i32 : BitVec 32 := 2048#32
  let v9 : BitVec 32 := Scalar.muli v8 c2048_i32
  v9
def k1_off1 (k1_t1 : Fin k1_t1_loop.trips) : Fin 1 → Nat :=
  let c0_i32_8 : BitVec 32 := 0#32
  let c0_i32 : BitVec 32 := 0#32
  let c1_i32 : BitVec 32 := 1#32
  let arg7 : BitVec 32 := Scf.iv c0_i32 c1_i32 k1_t1
  let c1_i32_7 : BitVec 32 := 1#32
  let v7 : BitVec 32 := Scalar.muli arg7 c1_i32_7
  let v8 : BitVec 32 := Scalar.addi c0_i32_8 v7
  let c2048_i32 : BitVec 32 := 2048#32
  let v9 : BitVec 32 := Scalar.muli v8 c2048_i32
  let v10 : BitVec 32 := v9
  let v11 : Index := Scalar.indexCast v10
  ![v11.toNat]
def k1_off2 (k1_t1 : Fin k1_t1_loop.trips) : Fin 3 → Nat :=
  let c0_13 : Index := 0#32
  let c0_i32_8 : BitVec 32 := 0#32
  let c0_i32 : BitVec 32 := 0#32
  let c1_i32 : BitVec 32 := 1#32
  let arg7 : BitVec 32 := Scf.iv c0_i32 c1_i32 k1_t1
  let c1_i32_7 : BitVec 32 := 1#32
  let v7 : BitVec 32 := Scalar.muli arg7 c1_i32_7
  let v8 : BitVec 32 := Scalar.addi c0_i32_8 v7
  let c2048_i32 : BitVec 32 := 2048#32
  let v9 : BitVec 32 := Scalar.muli v8 c2048_i32
  let v10 : BitVec 32 := v9
  let v41 : Index := Scalar.indexCast v10
  let c0_14 : Index := 0#32
  ![0, v41.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S256x128_S128x128_0_0 : S256x128.Slices ![0, 0] S128x128
  slices_S256x128_S128x128_128_0 : S256x128.Slices ![128, 0] S128x128
  shapeCasts_S32x128x2048_S4096x2048 : S32x128x2048.ShapeCasts S4096x2048
  shapeCasts_S32x128x5_S4096x5 : S32x128x5.ShapeCasts S4096x5
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S512x5_S512x5_0_0 : ∀ a, (![0, 0] : Fin 2 → Nat) a + S512x5.size a ≤ S512x5.size a
  h_S512x5 : 0 < S512x5.numel
  shapeCasts_S512x5_S512x5 : S512x5.ShapeCasts S512x5
  inb_S5x128_S5x128_0_0 : ∀ a, (![0, 0] : Fin 2 → Nat) a + S5x128.size a ≤ S5x128.size a
  h_S5x128 : 0 < S5x128.numel
  inb_S512x128_S512x128_0_0 : ∀ a, (![0, 0] : Fin 2 → Nat) a + S512x128.size a ≤ S512x128.size a
  h_S512x128 : 0 < S512x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S512x128_S512x128_0_0 : (Rect.unit (s := S512x128) ![0, 0] S512x128.size inb_S512x128_S512x128_0_0).PackedRows (EltTy.packing .bf16)
  shapeCasts_S4096x128_S32x128x128 : S4096x128.ShapeCasts S32x128x128
  iota_S2048x128_d1_w32 : S2048x128.Iotas .tc 32 [1]
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  h_S2048 : 0 < S2048.numel
  shapeCasts_S2048_S2048x1 : S2048.ShapeCasts S2048x1
  broadcasts_S2048x1_S2048x128 : S2048x1.Broadcasts S2048x128
  natLt_1_32 : 1 < 32
  broadcasts_S1x128_S2048x128 : S1x128.Broadcasts S2048x128
  h_S1x2048x128 : 0 < S1x2048x128.numel
  shapeCasts_S1x2048x128_S2048x128 : S1x2048x128.ShapeCasts S2048x128
  shapeCasts_S2048x128_S1x2048x128 : S2048x128.ShapeCasts S1x2048x128
  dot_S512x2048_S2048x128_S512x128_1_0_0_1_n_n_wf : DotDims.WF S512x2048 S2048x128 S512x128 [1] [0] [0] [1] [] []
  dot_S512x5_S5x128_S512x128_1_0_0_1_n_n_wf : DotDims.WF S512x5 S5x128 S512x128 [1] [0] [0] [1] [] []
  dot_S512x128_S128x128_S512x128_1_0_0_1_n_n_wf : DotDims.WF S512x128 S128x128 S512x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x5.size a ≤ S4096x5.size a
  hwx0_1 : ∀ i : grid0.Coords, EltTy.bits .f32 = 32 ∨ (Rect.block (s := S4096x5) S512x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .f32 = 32 ∨ (Rect.block (s := S2048x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x128.size a ≤ S5x128.size a
  hwx0_4 : ∀ i : grid0.Coords, EltTy.bits .f32 = 32 ∨ (Rect.block (s := S5x128) S5x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S4096x128.size a
  hwx0_8 : ∀ i : grid0.Coords, EltTy.bits .f32 = 32 ∨ (Rect.block (s := S4096x128) S512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S4096x128.size a
  hwx0_9 : ∀ i : grid0.Coords, EltTy.bits .bf16 = 32 ∨ (Rect.block (s := S4096x128) S512x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S4096x128.size a
  hwx0_10 : ∀ i : grid0.Coords, EltTy.bits .bf16 = 32 ∨ (Rect.block (s := S4096x128) S512x128.size (cc0_transform_10 i) (hinb0_10 i)).WholeWords (EltTy.packing .bf16)
  hrank1 : 0 < grid1.rank
  k1_t1_ok : k1_t1_loop.OK
  k1_mult1_dvd : ∀ k1_t1 : Fin k1_t1_loop.trips, 2048 ∣ (k1_mult1 k1_t1).toNat
  k1_off1_inb : ∀ k1_t1 : Fin k1_t1_loop.trips, ∀ a, (k1_off1 k1_t1) a + S2048.size a ≤ S8192.size a
  k1_off2_inb : ∀ k1_t1 : Fin k1_t1_loop.trips, ∀ a, (k1_off2 k1_t1) a + S1x2048x128.size a ≤ S1x8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S32x128x128.size a
  hwx1_0 : ∀ i : grid1.Coords, EltTy.bits .bf16 = 32 ∨ (Rect.block (s := S32x128x128) S1x128x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S32x128x128.size a
  hwx1_1 : ∀ i : grid1.Coords, EltTy.bits .bf16 = 32 ∨ (Rect.block (s := S32x128x128) S1x128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S8192.size a
  hwx1_2 : ∀ i : grid1.Coords, EltTy.bits .i32 = 32 ∨ (Rect.block (s := S8192) S8192.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192.size a ≤ S8192.size a
  hwx1_3 : ∀ i : grid1.Coords, EltTy.bits .i32 = 32 ∨ (Rect.block (s := S8192) S8192.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8192x128.size a ≤ S32x8192x128.size a
  hwx1_5 : ∀ i : grid1.Coords, EltTy.bits .f32 = 32 ∨ (Rect.block (s := S32x8192x128) S1x8192x128.size (cc1_transform_5 i) (hinb1_5 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x5_S5x128_S512x128_1_0_0_1_n_n : DotDims S512x5 S5x128 S512x128 where
  lhsContracting := [1]
  rhsContracting := [0]
  lhsNonContracting := [0]
  rhsNonContracting := [1]
  lhsBatch := []
  rhsBatch := []
  wf := dot_S512x5_S5x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S5x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S512x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S512x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v6) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x8192x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x128x2048 : Shape := ⟨3, ![32, 128, 2048]⟩
abbrev S32x128x5 : Shape := ⟨3, ![32, 128, 5]⟩
abbrev S8192 : Shape := ⟨1, ![8192]⟩
abbrev S2048x128 : Shape := ⟨2, ![2048, 128]⟩
abbrev S128 : Shape := ⟨1, ![128]⟩
abbrev S5x128 : Shape := ⟨2, ![5, 128]⟩
abbrev S256x128 : Shape := ⟨2, ![256, 128]⟩
abbrev S32x128x128 : Shape := ⟨3, ![32, 128, 128]⟩
abbrev S1x1x128 : Shape := ⟨3, ![1, 1, 128]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S32x8192x128 : Shape := ⟨3, ![32, 8192, 128]⟩
abbrev S128x128 : Shape := ⟨2, ![128, 128]⟩

abbrev nBuf : Space → Nat
  | .hbm => 73
  | .vmem => 0
  | .smem => 0
  | _ => 0

abbrev bufTy : (tb : Table) → Fin (tcTables nBuf tb) → BufTy
  | .hbm, ⟨0, _⟩ => ⟨S32x128x2048, .f32⟩
  | .hbm, ⟨1, _⟩ => ⟨S32x128x5, .f32⟩
  | .hbm, ⟨2, _⟩ => ⟨S8192, .i32⟩
  | .hbm, ⟨3, _⟩ => ⟨S8192, .i32⟩
  | .hbm, ⟨4, _⟩ => ⟨S2048x128, .f32⟩
  | .hbm, ⟨5, _⟩ => ⟨S128, .f32⟩
  | .hbm, ⟨6, _⟩ => ⟨S5x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S32x128x128, .f32⟩
  | .hbm, ⟨11, _⟩ => ⟨S1x1x128, .f32⟩
  | .hbm, ⟨12, _⟩ => ⟨S32x128x128, .f32⟩
  | .hbm, ⟨13, _⟩ => ⟨S32x128x128, .f32⟩
  | .hbm, ⟨14, _⟩ => ⟨S32x128x128, .f32⟩
  | .hbm, ⟨15, _⟩ => ⟨S1x1x128, .f32⟩
  | .hbm, ⟨16, _⟩ => ⟨S32x128x128, .f32⟩
  | .hbm, ⟨17, _⟩ => ⟨S32x128x128, .f32⟩
  | .hbm, ⟨18, _⟩ => ⟨S32x128x128, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S1, .i32⟩
  | .hbm, ⟨28, _⟩ => ⟨S_, .i32⟩
  | .hbm, ⟨29, _⟩ => ⟨S8192x1, .i32⟩
  | .hbm, ⟨30, _⟩ => ⟨S8192x1, .i1⟩
  | .hbm, ⟨31, _⟩ => ⟨S1x1, .i32⟩
  | .hbm, ⟨32, _⟩ => ⟨S8192x1, .i32⟩
  | .hbm, ⟨33, _⟩ => ⟨S8192x1, .i1⟩
  | .hbm, ⟨34, _⟩ => ⟨S8192x1, .i1⟩
  | .hbm, ⟨35, _⟩ => ⟨S_, .i1⟩
  | .hbm, ⟨36, _⟩ => ⟨S8192, .i1⟩
  | .hbm, ⟨37, _⟩ => ⟨S32x8192x128, .f32⟩
  | .hbm, ⟨38, _⟩ => ⟨S32x8192x128, .i1⟩
  | .hbm, ⟨39, _⟩ => ⟨S_, .f32⟩
  | .hbm, ⟨40, _⟩ => ⟨S32x8192x128, .f32⟩
  | .hbm, ⟨41, _⟩ => ⟨S32x8192x128, .f32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S8192x1, .i32⟩
  | .hbm, ⟨50, _⟩ => ⟨S1, .i32⟩
  | .hbm, ⟨51, _⟩ => ⟨S_, .i32⟩
  | .hbm, ⟨52, _⟩ => ⟨S8192x1, .i32⟩
  | .hbm, ⟨53, _⟩ => ⟨S8192x1, .i1⟩
  | .hbm, ⟨54, _⟩ => ⟨S1x1, .i32⟩
  | .hbm, ⟨55, _⟩ => ⟨S8192x1, .i32⟩
  | .hbm, ⟨56, _⟩ => ⟨S8192x1, .i1⟩
  | .hbm, ⟨57, _⟩ => ⟨S8192x1, .i1⟩
  | .hbm, ⟨58, _⟩ => ⟨S_, .i1⟩
  | .hbm, ⟨59, _⟩ => ⟨S8192, .i1⟩
  | .hbm, ⟨60, _⟩ => ⟨S32x8192x128, .f32⟩
  | .hbm, ⟨61, _⟩ => ⟨S32x8192x128, .i1⟩
  | .hbm, ⟨62, _⟩ => ⟨S_, .f32⟩
  | .hbm, ⟨63, _⟩ => ⟨S32x8192x128, .f32⟩
  | .hbm, ⟨64, _⟩ => ⟨S32x8192x128, .f32⟩
  | .hbm, ⟨65, _⟩ => ⟨S128x128, .f32⟩
  | .hbm, ⟨66, _⟩ => ⟨S32x8192x128, .f32⟩
  | .hbm, ⟨67, _⟩ => ⟨S128x128, .f32⟩
  | .hbm, ⟨68, _⟩ => ⟨S32x8192x128, .f32⟩
  | .hbm, ⟨69, _⟩ => ⟨S32x8192x128, .f32⟩
  | .hbm, ⟨70, _⟩ => ⟨S1x1x128, .f32⟩
  | .hbm, ⟨71, _⟩ => ⟨S32x8192x128, .f32⟩
  | .hbm, ⟨72, _⟩ => ⟨S32x8192x128, .f32⟩
  | _, _ => ⟨S32x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v9 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x128x128_0_1_2 : S1x1x128.BroadcastsInDim S32x128x128 (![0, 1, 2] : Fin 3 → Fin S32x128x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S32x8192x128_1 : S8192.BroadcastsInDim S32x8192x128 (![1] : Fin 1 → Fin S32x8192x128.rank)
  bcast_S_S32x8192x128 : S_.BroadcastsInDim S32x8192x128 (![] : Fin 0 → Fin S32x8192x128.rank)
  slices_S256x128_S128x128_0_0 : S256x128.Slices ![0, 0] S128x128
  slices_S256x128_S128x128_128_0 : S256x128.Slices ![128, 0] S128x128
  bcast_S1x1x128_S32x8192x128_0_1_2 : S1x1x128.BroadcastsInDim S32x8192x128 (![0, 1, 2] : Fin 3 → Fin S32x8192x128.rank)
  dot_S32x128x2048_S2048x128_S32x128x128_2_0_01_1_n_n_wf : DotDims.WF S32x128x2048 S2048x128 S32x128x128 [2] [0] [0, 1] [1] [] []
  dot_S32x128x5_S5x128_S32x128x128_2_0_01_1_n_n_wf : DotDims.WF S32x128x5 S5x128 S32x128x128 [2] [0] [0, 1] [1] [] []
  gather_S32x128x128_S8192x1_S32x8192x128_02_1_n_n_1_1_321128_wf : GatherDims.WF S32x128x128 S8192x1 S32x8192x128 [0, 2] [1] [] [1] [] 1 ![32, 1, 128]
  dot_S32x8192x128_S128x128_S32x8192x128_2_0_01_1_n_n_wf : DotDims.WF S32x8192x128 S128x128 S32x8192x128 [2] [0] [0, 1] [1] [] []

variable [Facts₀]

def dot_S32x128x2048_S2048x128_S32x128x128_2_0_01_1_n_n : DotDims S32x128x2048 S2048x128 S32x128x128 where
  lhsContracting := [2]
  rhsContracting := [0]
  lhsNonContracting := [0, 1]
  rhsNonContracting := [1]
  lhsBatch := []
  rhsBatch := []
  wf := dot_S32x128x2048_S2048x128_S32x128x128_2_0_01_1_n_n_wf
def dot_S32x128x5_S5x128_S32x128x128_2_0_01_1_n_n : DotDims S32x128x5 S5x128 S32x128x128 where
  lhsContracting := [2]
  rhsContracting := [0]
  lhsNonContracting := [0, 1]
  rhsNonContracting := [1]
  lhsBatch := []
  rhsBatch := []
  wf := dot_S32x128x5_S5x128_S32x128x128_2_0_01_1_n_n_wf
def gather_S32x128x128_S8192x1_S32x8192x128_02_1_n_n_1_1_321128 : GatherDims S32x128x128 S8192x1 S32x8192x128 where
  offsetDims := [0, 2]
  collapsedSliceDims := [1]
  operandBatchingDims := []
  startIndicesBatchingDims := []
  startIndexMap := [1]
  indexVectorDim := 1
  sliceSizes := ![32, 1, 128]
  wf := gather_S32x128x128_S8192x1_S32x8192x128_02_1_n_n_1_1_321128_wf
def dot_S32x8192x128_S128x128_S32x8192x128_2_0_01_1_n_n : DotDims S32x8192x128 S128x128 S32x8192x128 where
  lhsContracting := [2]
  rhsContracting := [0]
  lhsNonContracting := [0, 1]
  rhsNonContracting := [1]
  lhsBatch := []
  rhsBatch := []
  wf := dot_S32x8192x128_S128x128_S32x8192x128_2_0_01_1_n_n_wf

class Facts : Prop extends Facts₀ where

variable [Facts]
-- ==== Proof.Spec.lean ====
/-
  The mathematics both programs compute, over plain index functions and explicit coordinates.

  With `x : [B, N, I]` the image features, `l : [B, N, 5]` the locations and `s, d : [E]` the edge
  end points (node numbers), the two results are

    node[b, n, h]  = (Σ_q x[b,n,q] · Wi[q,h] + bi[h]) + (Σ_q l[b,n,q] · Wl[q,h] + bl[h])
    edge[b, e, k]  = (Σ_h img[b, s e, h] · Wr[h, k] + Σ_h img[b, d e, h] · Wr[128 + h, k]) + br[k]

  where `img[b, n, h] = Σ_q x[b,n,q] · Wi[q,h] + bi[h]` is the first summand of `node`.
  The kernel computes `img` on the flat row `r = 128·b + n`, multiplies every node's row by the two
  halves of `Wr` once, and then selects the rows `s e` and `d e` by a product with a 0/1 row; the
  reference selects rows of `img` first and multiplies afterwards. Selecting a row commutes with a
  product on the right, and a 0/1 row selects: both facts hold on the extended reals with no
  finiteness (`0 · x = 0`, `1 · x = x`, a sum with one non-zero term).
-/
import Idealize.ShloMosaic.PureOps.Ideal
import Idealize.ShloMosaic.Lib.ValueIdx

noncomputable section

open scoped BigOperators

namespace Cert.Spec

open Idealize.ShloMosaic Idealize.ShloMosaic.ValueIdx

/-- Arrays of rank 1, 2, 3 over literal extents, as functions of an index. -/
abbrev Arr1 (a : Nat) (α : Type) := (⟨1, ![a]⟩ : Shape).Idx → α
abbrev Arr2 (a b : Nat) (α : Type) := (⟨2, ![a, b]⟩ : Shape).Idx → α
abbrev Arr3 (a b c : Nat) (α : Type) := (⟨3, ![a, b, c]⟩ : Shape).Idx → α

/-- A signed 32-bit node number clamped into the rows `0 … 127`: the row it selects. For a number
    already in that range it is the number itself (`rowOf_of_range`). -/
def rowOf (w : BitVec 32) : Fin 128 := ⟨(min 127 (max 0 w.toInt)).toNat, by omega⟩

theorem rowOf_of_range (w : BitVec 32) (h0 : 0 ≤ w.toInt) (h1 : w.toInt < 128) :
    (rowOf w).val = w.toInt.toNat := by
  unfold rowOf
  show (min 127 (max 0 w.toInt)).toNat = w.toInt.toNat
  congr 1
  omega

/-! ## On flat rows `r = 128·b + n` (what the first pallas_call works on) -/

/-- The image projection of flat row `r`, column `h`. -/
def imgFlat (x : Arr2 4096 2048 EReal) (Wi : Arr2 2048 128 EReal) (bi : Arr1 128 EReal)
    (r : Fin 4096) (h : Fin 128) : EReal :=
  (∑ q : Fin 2048, x (ix2 r q) * Wi (ix2 q h)) + bi (ix1 h)

/-- The location projection of flat row `r`, column `h`. -/
def locFlat (l : Arr2 4096 5 EReal) (Wl : Arr2 5 128 EReal) (bl : Arr1 128 EReal)
    (r : Fin 4096) (h : Fin 128) : EReal :=
  (∑ q : Fin 5, l (ix2 r q) * Wl (ix2 q h)) + bl (ix1 h)

/-- The node features of flat row `r`: image plus location projection. -/
def nodeFlat (x : Arr2 4096 2048 EReal) (l : Arr2 4096 5 EReal) (Wi : Arr2 2048 128 EReal) (bi : Arr1 128 EReal)
    (Wl : Arr2 5 128 EReal) (bl : Arr1 128 EReal) (r : Fin 4096) (h : Fin 128) : EReal :=
  imgFlat x Wi bi r h + locFlat l Wl bl r h

/-- A node's image projection multiplied by one half `Wh : [128, 128]` of the relation weights. -/
def projFlat (x : Arr2 4096 2048 EReal) (Wi : Arr2 2048 128 EReal) (bi : Arr1 128 EReal) (Wh : Arr2 128 128 EReal)
    (r : Fin 4096) (k : Fin 128) : EReal :=
  ∑ h : Fin 128, imgFlat x Wi bi r h * Wh (ix2 h k)

/-- An edge's features from the two per-node tables: the source's row of `ps`, the destination's row
    of `pd`, the bias. -/
def edgeSel (ps pd : Arr3 32 128 128 EReal) (s d : Arr1 8192 (BitVec 32)) (br : Arr1 128 EReal)
    (b : Fin 32) (e : Fin 8192) (k : Fin 128) : EReal :=
  (ps (ix3 b (rowOf (s (ix1 e))) k) + pd (ix3 b (rowOf (d (ix1 e))) k)) + br (ix1 k)

/-! ## On `[B, N, ·]` arrays (the reference's, and the statement's) -/

/-- The image projection of node `n` of batch `b`, column `h`. -/
def img (x : Arr3 32 128 2048 EReal) (Wi : Arr2 2048 128 EReal) (bi : Arr1 128 EReal)
    (b : Fin 32) (n : Fin 128) (h : Fin 128) : EReal :=
  (∑ q : Fin 2048, x (ix3 b n q) * Wi (ix2 q h)) + bi (ix1 h)

/-- The location projection of node `n` of batch `b`, column `h`. -/
def loc (l : Arr3 32 128 5 EReal) (Wl : Arr2 5 128 EReal) (bl : Arr1 128 EReal)
    (b : Fin 32) (n : Fin 128) (h : Fin 128) : EReal :=
  (∑ q : Fin 5, l (ix3 b n q) * Wl (ix2 q h)) + bl (ix1 h)

/-- RESULT 0, the node features. -/
def node (x : Arr3 32 128 2048 EReal) (l : Arr3 32 128 5 EReal) (Wi : Arr2 2048 128 EReal) (bi : Arr1 128 EReal)
    (Wl : Arr2 5 128 EReal) (bl : Arr1 128 EReal) (b : Fin 32) (n : Fin 128) (h : Fin 128) : EReal :=
  img x Wi bi b n h + loc l Wl bl b n h

/-- RESULT 1, the edge features: the source's and the destination's image projections through the
    upper and the lower half of `Wr : [256, 128]`, plus the bias. -/
def edge (x : Arr3 32 128 2048 EReal) (s d : Arr1 8192 (BitVec 32)) (Wi : Arr2 2048 128 EReal) (bi : Arr1 128 EReal)
    (Wr : Arr2 256 128 EReal) (br : Arr1 128 EReal) (b : Fin 32) (e : Fin 8192) (k : Fin 128) : EReal :=
  ((∑ h : Fin 128, img x Wi bi b (rowOf (s (ix1 e))) h * Wr (ix2 (⟨h.val, by omega⟩ : Fin 256) k))
    + (∑ h : Fin 128, img x Wi bi b (rowOf (d (ix1 e))) h * Wr (ix2 (⟨128 + h.val, by omega⟩ : Fin 256) k)))
    + br (ix1 k)

/-- A 0/1 row times a column selects one entry: `Σ_n [n = r] · P n = P r` on the extended reals. -/
theorem sum_indicator_mul {n : Nat} (r : Fin n) (P : Fin n → EReal) :
    (∑ j : Fin n, (if j = r then (1 : EReal) else 0) * P j) = P r := by
  rw [Finset.sum_eq_single r]
  · simp
  · intro j _ hj; simp [hj]
  · intro h; exact absurd (Finset.mem_univ r) h

end Cert.Spec

end
-- ==== Proof.RefTerm.lean ====
/-
  The reference program as ONE pure function of its argument arrays: its host operations composed in
  program order. `takeRows` is numpy's `take(·, idx, axis=1)` of a `[32, 128, 128]` array as the
  program spells it: a negative index wraps by `+128`, the gather reads the wrapped row, and an entry
  whose wrapped index is outside `0 … 127` is replaced by the fill constant. `nodeT` and `edgeT` are the
  two results.
-/
import proofs.«428156_j38482906972413_3_alg».proof.Proof.Gen.ReferenceIdeal

noncomputable section

namespace Cert.ReferenceIdeal.Term

open Idealize.ShloMosaic Cert.ReferenceIdeal Cert.ReferenceIdeal.Gen

variable {F : FTy → Type} [FloatOps F]

/-- The wrapped index column `[8192, 1]`: `idx + 128` where `idx < 0`, else `idx`. -/
def wrapCol (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 128#32))) idx)

/-- The in-range mask `[8192]` of the wrapped indices: `0 ≤ · ∧ · ≤ 127`, and-reduced over the unit axis. -/
def inRange (idx : IVec S8192 32) : IVec S8192 1 :=
  Host.reduce IntOp.andi
    (andi (cmpi .sge (wrapCol idx) (broadcastInDim S8192x1 ![] bcast_S_S8192x1 (constantI S_ 32 0#32)))
      (cmpi .sle (wrapCol idx)
        (broadcastInDim S8192x1 ![0, 1] bcast_S1x1_S8192x1_0_1
          (broadcastInDim S1x1 ![1] bcast_S1_S1x1_1 (constantI S1 32 127#32)))))
    (constantI S_ 1 1#1) reducesTo_S8192x1_S8192_d1 h_S_

/-- `take(x, idx, axis = 1)`: the gathered rows where the wrapped index is in range, the fill constant elsewhere. -/
def takeRows (x : FVec F S32x128x128 .f32) (idx : IVec S8192 32) : FVec F S32x8192x128 .f32 :=
  select (broadcastInDim S32x8192x128 ![1] bcast_S8192_S32x8192x128_1 (inRange idx))
    (Host.gather gather_S32x128x128_S8192x1_S32x8192x128_02_1_n_n_1_1_321128 x (wrapCol idx))
    (broadcastInDim S32x8192x128 ![] bcast_S_S32x8192x128 (constant S_ .f32 0x7FC00000#32))

/-- `img = einsum(x, Wi) + bi` (the program's %3). -/
def imgT (a0 : FVec F S32x128x2048 .f32) (a4 : FVec F S2048x128 .f32) (a5 : FVec F S128 .f32) : FVec F S32x128x128 .f32 :=
  addf (Host.dotGeneral dot_S32x128x2048_S2048x128_S32x128x128_2_0_01_1_n_n none a0 a4)
    (broadcastInDim S32x128x128 ![0, 1, 2] bcast_S1x1x128_S32x128x128_0_1_2 (broadcastInDim S1x1x128 ![2] bcast_S128_S1x1x128_2 a5))

/-- `loc = einsum(l, Wl) + bl` (the program's %7). -/
def locT (a1 : FVec F S32x128x5 .f32) (a6 : FVec F S5x128 .f32) (a7 : FVec F S128 .f32) : FVec F S32x128x128 .f32 :=
  addf (Host.dotGeneral dot_S32x128x5_S5x128_S32x128x128_2_0_01_1_n_n none a1 a6)
    (broadcastInDim S32x128x128 ![0, 1, 2] bcast_S1x1x128_S32x128x128_0_1_2 (broadcastInDim S1x1x128 ![2] bcast_S128_S1x1x128_2 a7))

/-- RESULT 0 (the program's %8): `img + loc`. -/
def nodeT (a0 : FVec F S32x128x2048 .f32) (a1 : FVec F S32x128x5 .f32) (a4 : FVec F S2048x128 .f32) (a5 : FVec F S128 .f32)
    (a6 : FVec F S5x128 .f32) (a7 : FVec F S128 .f32) : FVec F S32x128x128 .f32 :=
  addf (imgT a0 a4 a5) (locT a1 a6 a7)

/-- RESULT 1 (the program's %18): the rows of `img` taken at the sources through the upper half of `Wr`,
    those taken at the destinations through the lower half, added, plus the bias. -/
def edgeT (a0 : FVec F S32x128x2048 .f32) (a2 a3 : IVec S8192 32) (a4 : FVec F S2048x128 .f32) (a5 : FVec F S128 .f32)
    (a8 : FVec F S256x128 .f32) (a9 : FVec F S128 .f32) : FVec F S32x8192x128 .f32 :=
  addf
    (addf
      (Host.dotGeneral dot_S32x8192x128_S128x128_S32x8192x128_2_0_01_1_n_n none (takeRows (imgT a0 a4 a5) a2)
        (extractStridedSlice S128x128 ![0, 0] a8 slices_S256x128_S128x128_0_0))
      (Host.dotGeneral dot_S32x8192x128_S128x128_S32x8192x128_2_0_01_1_n_n none (takeRows (imgT a0 a4 a5) a3)
        (extractStridedSlice S128x128 ![128, 0] a8 slices_S256x128_S128x128_128_0)))
    (broadcastInDim S32x8192x128 ![0, 1, 2] bcast_S1x1x128_S32x8192x128_0_1_2 (broadcastInDim S1x1x128 ![2] bcast_S128_S1x1x128_2 a9))

end Cert.ReferenceIdeal.Term

end
-- ==== Proof.PreRange.lean ====
/-
  What the precondition says of the two integer inputs: every edge end point is a node number,
  `0 ≤ · < 128`. The precondition is a conjunction of `all`s; its last two conjuncts are the two range
  tests, each the and-reduction of `(0 ≤ idx) ∧ (idx < 128)` over the 8192 edges.
-/
import proofs.«428156_j38482906972413_3_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx Cert.Pre_finite_inputs Cert.Pre_finite_inputs.Gen

variable {F : FTy → Type} [FloatOps F]

instance : Subsingleton S_.Idx := ⟨fun a b => funext fun d => d.elim0⟩

/-- The range test of one index array, read back: where the and-reduction of
    `(0 ≤ idx) ∧ (idx < 128)` is 1, every entry is in `0 … 127`. -/
theorem range_of_all (idx : IVec S8192 32)
    (h : Host.reduce IntOp.andi
          (andi (cmpi .sge idx (broadcastInDim S8192 ![] bcast_S_S8192 (constantI S_ 32 0#32)))
            (cmpi .slt idx (broadcastInDim S8192 ![] bcast_S_S8192 (constantI S_ 32 128#32))))
          (constantI S_ 1 1#1) reducesTo_S8192_S_d0 h_S_ ix0 = 1#1)
    (i : S8192.Idx) : 0 ≤ (idx i).toInt ∧ (idx i).toInt < 128 := by
  have hi := Host.reduce_andi_all _ _ _ _ _ h i
  obtain ⟨hge, hlt⟩ := IntOp.andi_eq_one.1 hi
  have h1 := IntOp.cmpi_sge.1 hge
  have h2 := IntOp.cmpi_slt.1 hlt
  exact ⟨h1, h2⟩

/-- The precondition gives both index arrays in range. -/
theorem range_of_pre (a0 : FVec F S32x128x2048 .f32) (a1 : FVec F S32x128x5 .f32) (a2 a3 : IVec S8192 32)
    (a4 : FVec F S2048x128 .f32) (a5 : FVec F S128 .f32) (a6 : FVec F S5x128 .f32) (a7 : FVec F S128 .f32)
    (a8 : FVec F S256x128 .f32) (a9 : FVec F S128 .f32)
    (h : fn (F := F) a0 a1 a2 a3 a4 a5 a6 a7 a8 a9 = fun _ => 1#1) :
    (∀ i : S8192.Idx, 0 ≤ (a2 i).toInt ∧ (a2 i).toInt < 128)
      ∧ (∀ i : S8192.Idx, 0 ≤ (a3 i).toInt ∧ (a3 i).toInt < 128) := by
  have h0 := congrFun h ix0
  dsimp only [fn, fn_part1, fn_part2, fn_part3] at h0
  obtain ⟨h45, h51⟩ := IntOp.andi_eq_one.1 h0
  obtain ⟨-, h44⟩ := IntOp.andi_eq_one.1 h45
  exact ⟨range_of_all a2 h44, range_of_all a3 h51⟩

end Cert.PreRange

end
-- ==== Proof.LibDense.lean ====
/-
  Dense layers at the ideal values, read entry by entry.

  An affine layer sends an n × k array x, a k × m array w and a row of m biases β to the n × m array whose entry (a, c) is
  ∑ j, x(a, j) · w(j, c) + β(c); a rectifier takes the maximum with 0 entry by entry. On the extended reals both are
  what a kernel's matrix product into a zero accumulator plus a broadcast one-row bias computes, and what a host
  dot_general plus a twice-broadcast bias vector computes (the sums are over the contracted coordinate; neither spelling has
  another term). Three arrays laid side by side along the columns and contracted against one weight array give the sum of
  the three partial products against the weight array's three row bands: a finite sum over k₁ + k₂ + k₃ terms split at k₁
  and k₁ + k₂, which needs only that addition is associative and commutative, so it holds at the infinities too.
  Entry (a, c) of a layer depends on row a of its input only, so a network of such layers applied to a block of rows
  agrees with the network applied to the whole array on the rows of the block.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

open scoped BigOperators

namespace Cert.LibDense

open Idealize.ShloMosaic Idealize.ShloMosaic.ValueIdx

/-- An n × m array of extended reals. -/
abbrev Mat (n m : Nat) : Type := (⟨2, ![n, m]⟩ : Shape).Idx → EReal

section Layers
variable {n k m : Nat}

/-- The affine layer: entry (a, c) is ∑ j, x(a, j) · w(j, c) + β(c). -/
def aff (x : Mat n k) (w : Mat k m) (β : Fin m → EReal) : Mat n m :=
  fun i => ∑ j : Fin k, x (ix2 (i 0) j) * w (ix2 j (i 1)) + β (i 1)

theorem aff_apply (x : Mat n k) (w : Mat k m) (β : Fin m → EReal) (a : Fin n) (c : Fin m) :
    aff x w β (ix2 a c) = ∑ j : Fin k, x (ix2 a j) * w (ix2 j c) + β c := rfl

/-- The rectifier: the maximum with 0, entry by entry. -/
def relu (y : Mat n m) : Mat n m := fun i => max (y i) 0

theorem relu_apply (y : Mat n m) (i : (⟨2, ![n, m]⟩ : Shape).Idx) : relu y i = max (y i) 0 := rfl

/-- A kernel's layer: the matrix product accumulated into a zero splat, plus a one-row bias broadcast down the rows. -/
theorem kernel_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (brow : FVec Ideal ⟨2, ![1, m]⟩ .f32)
    (hb : (⟨2, ![1, m]⟩ : Shape).Broadcasts ⟨2, ![n, m]⟩) :
    addf (matmul d none x w (constant ⟨2, ![n, m]⟩ .f32 0x00000000#32)) (broadcastTo ⟨2, ![n, m]⟩ brow hb)
      = aff x w (fun c => brow (ix2 (0 : Fin 1) c)) := by
  subst hd
  funext i
  obtain ⟨a, c, rfl⟩ : ∃ (a : Fin n) (c : Fin m), i = ix2 a c := ⟨i 0, i 1, eq_ix2 i⟩
  rw [addf_apply, matmul_zero_eq_dotGeneral, StackMember.dotGeneral_plain_apply, broadcastTo_1b_ab_apply]
  rfl

/-- A kernel's matrix product into a zero splat, with no bias: the sums alone. -/
theorem kernel_product {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (a : Fin n) (c : Fin m) :
    matmul d none x w (constant ⟨2, ![n, m]⟩ .f32 0x00000000#32) (ix2 a c) = ∑ j : Fin k, x (ix2 a j) * w (ix2 j c) := by
  subst hd
  rw [matmul_zero_eq_dotGeneral, StackMember.dotGeneral_plain_apply]

/-- A vector laid out as one row reads, at (0, c), the vector at c. -/
theorem row_of_vector {α : Type} (b : (⟨1, ![m]⟩ : Shape).Idx → α)
    (h1 : (⟨1, ![m]⟩ : Shape).BroadcastsInDim ⟨2, ![1, m]⟩ ![1]) (c : Fin m) :
    broadcastInDim ⟨2, ![1, m]⟩ ![1] h1 b (ix2 (0 : Fin 1) c) = b (ix1 c) := by
  refine broadcastInDim_apply ![1] h1 b (ix2 (0 : Fin 1) c) (ix1 c) ?_
  intro a
  match a with
  | ⟨0, _⟩ =>
    show c.val = if m = 1 then 0 else c.val
    split
    · have := c.isLt; omega
    · rfl

/-- The host's layer: the dot_general plus the bias vector laid out as a row and broadcast down the rows. -/
theorem host_layer {φ₁ φ₂ : FTy} (d : DotDims ⟨2, ![n, k]⟩ ⟨2, ![k, m]⟩ ⟨2, ![n, m]⟩) (hd : d = DotDims.plain n k m)
    (x : FVec Ideal ⟨2, ![n, k]⟩ φ₁) (w : FVec Ideal ⟨2, ![k, m]⟩ φ₂) (b : FVec Ideal ⟨1, ![m]⟩ .f32)
    (h1 : (⟨1, ![m]⟩ : Shape).BroadcastsInDim ⟨2, ![1, m]⟩ ![1])
    (h2 : (⟨2, ![1, m]⟩ : Shape).BroadcastsInDim ⟨2, ![n, m]⟩ ![0, 1]) :
    addf (Host.dotGeneral d none x w) (broadcastInDim ⟨2, ![n, m]⟩ ![0, 1] h2 (broadcastInDim ⟨2, ![1, m]⟩ ![1] h1 b))
      = aff x w (fun c => b (ix1 c)) := by
  subst hd
  funext i
  obtain ⟨a, c, rfl⟩ : ∃ (a : Fin n) (c : Fin m), i = ix2 a c := ⟨i 0, i 1, eq_ix2 i⟩
  rw [addf_apply, StackMember.dotGeneral_plain_apply, broadcastInDim_oneRow_apply, row_of_vector]
  rfl

/-- A kernel's rectifier: the maximum with a splat of the zero word. -/
theorem kernel_relu (y : FVec Ideal ⟨2, ![n, m]⟩ .f32) :
    maximumf y (broadcast ⟨2, ![n, m]⟩ (Scalar.ofBits (F := Ideal) .f32 0x00000000#32)) = relu y := by
  funext i
  show max (y i) (Ideal.ofBits .f32 0x00000000#32) = max (y i) 0
  rw [Ideal.ofBits_zero_f32]

/-- The host's rectifier: the maximum with the zero constant broadcast to the array's shape. -/
theorem host_relu (y : FVec Ideal ⟨2, ![n, m]⟩ .f32)
    (h : (⟨0, ![]⟩ : Shape).BroadcastsInDim ⟨2, ![n, m]⟩ (![] : Fin 0 → Fin 2)) :
    maximumf y (broadcastInDim ⟨2, ![n, m]⟩ ![] h (constant (F := Ideal) ⟨0, ![]⟩ .f32 0x00000000#32)) = relu y := by
  funext i
  rw [maximumf_apply, broadcastInDim_apply ![] h _ i ix0 (fun a => a.elim0), constant_apply, Ideal.ofBits_zero_f32]
  rfl

/-- At the ideal values a narrowing change of format is the identity on the whole array. -/
theorem truncf_id {s : Shape} {φ ψ : FTy} (a : FVec Ideal s φ) (h : ψ.bits < φ.bits) :
    (truncf ψ a h : s.Idx → EReal) = a := rfl

end Layers

/-! ## Three arrays side by side, contracted against one weight array -/

section Split
variable {n k₁ k₂ k₃ K m : Nat}

/-- Three arrays of k₁, k₂ and k₃ columns laid side by side. -/
def cat3 (hK : k₁ + k₂ + k₃ = K) (x₁ : Mat n k₁) (x₂ : Mat n k₂) (x₃ : Mat n k₃) : Mat n K := fun i =>
  if h₁ : (i 1).val < k₁ then x₁ (ix2 (i 0) ⟨(i 1).val, h₁⟩)
  else if h₂ : (i 1).val < k₁ + k₂ then x₂ (ix2 (i 0) ⟨(i 1).val - k₁, by omega⟩)
  else x₃ (ix2 (i 0) ⟨(i 1).val - (k₁ + k₂), by have := idx2_lt1 i; omega⟩)

theorem cat3_apply (hK : k₁ + k₂ + k₃ = K) (x₁ : Mat n k₁) (x₂ : Mat n k₂) (x₃ : Mat n k₃) (a : Fin n) (j : Fin K) :
    cat3 hK x₁ x₂ x₃ (ix2 a j)
      = if h₁ : j.val < k₁ then x₁ (ix2 a ⟨j.val, h₁⟩)
        else if h₂ : j.val < k₁ + k₂ then x₂ (ix2 a ⟨j.val - k₁, by omega⟩)
        else x₃ (ix2 a ⟨j.val - (k₁ + k₂), by have := j.isLt; omega⟩) := rfl

/-- Rows o, o + 1, … of a weight array, as many as the band has. -/
def band {k : Nat} (o : Nat) (ho : o + k ≤ K) (w : Mat K m) : Mat k m :=
  fun i => w (ix2 ⟨o + (i 0).val, by have := idx2_lt0 i; omega⟩ (i 1))

/-- The first layer in its three-product form: the partial products against the three row bands, then the bias. -/
def aff3 (x₁ : Mat n k₁) (x₂ : Mat n k₂) (x₃ : Mat n k₃) (w₁ : Mat k₁ m) (w₂ : Mat k₂ m) (w₃ : Mat k₃ m)
    (β : Fin m → EReal) : Mat n m :=
  fun i => (∑ j : Fin k₁, x₁ (ix2 (i 0) j) * w₁ (ix2 j (i 1)) + ∑ j : Fin k₂, x₂ (ix2 (i 0) j) * w₂ (ix2 j (i 1)))
    + ∑ j : Fin k₃, x₃ (ix2 (i 0) j) * w₃ (ix2 j (i 1)) + β (i 1)

theorem aff3_apply (x₁ : Mat n k₁) (x₂ : Mat n k₂) (x₃ : Mat n k₃) (w₁ : Mat k₁ m) (w₂ : Mat k₂ m) (w₃ : Mat k₃ m)
    (β : Fin m → EReal) (a : Fin n) (c : Fin m) :
    aff3 x₁ x₂ x₃ w₁ w₂ w₃ β (ix2 a c)
      = (∑ j : Fin k₁, x₁ (ix2 a j) * w₁ (ix2 j c) + ∑ j : Fin k₂, x₂ (ix2 a j) * w₂ (ix2 j c))
        + ∑ j : Fin k₃, x₃ (ix2 a j) * w₃ (ix2 j c) + β c := rfl

/-- A kernel's first layer written as three matrix products into zero splats, added, plus a one-row bias broadcast down
    the rows: the three-product form. -/
theorem kernel_layer3 {φ₁ φ₂ φ₃ ψ₁ ψ₂ ψ₃ : FTy}
    (d₁ : DotDims ⟨2, ![n, k₁]⟩ ⟨2, ![k₁, m]⟩ ⟨2, ![n, m]⟩) (hd₁ : d₁ = DotDims.plain n k₁ m)
    (d₂ : DotDims ⟨2, ![n, k₂]⟩ ⟨2, ![k₂, m]⟩ ⟨2, ![n, m]⟩) (hd₂ : d₂ = DotDims.plain n k₂ m)
    (d₃ : DotDims ⟨2, ![n, k₃]⟩ ⟨2, ![k₃, m]⟩ ⟨2, ![n, m]⟩) (hd₃ : d₃ = DotDims.plain n k₃ m)
    (x₁ : FVec Ideal ⟨2, ![n, k₁]⟩ φ₁) (w₁ : FVec Ideal ⟨2, ![k₁, m]⟩ ψ₁)
    (x₂ : FVec Ideal ⟨2, ![n, k₂]⟩ φ₂) (w₂ : FVec Ideal ⟨2, ![k₂, m]⟩ ψ₂)
    (x₃ : FVec Ideal ⟨2, ![n, k₃]⟩ φ₃) (w₃ : FVec Ideal ⟨2, ![k₃, m]⟩ ψ₃)
    (brow : FVec Ideal ⟨2, ![1, m]⟩ .f32) (hb : (⟨2, ![1, m]⟩ : Shape).Broadcasts ⟨2, ![n, m]⟩) :
    addf (addf (addf (matmul d₁ none x₁ w₁ (constant ⟨2, ![n, m]⟩ .f32 0x00000000#32))
          (matmul d₂ none x₂ w₂ (constant ⟨2, ![n, m]⟩ .f32 0x00000000#32)))
        (matmul d₃ none x₃ w₃ (constant ⟨2, ![n, m]⟩ .f32 0x00000000#32)))
      (broadcastTo ⟨2, ![n, m]⟩ brow hb)
      = aff3 x₁ x₂ x₃ w₁ w₂ w₃ (fun c => brow (ix2 (0 : Fin 1) c)) := by
  funext i
  obtain ⟨a, c, rfl⟩ : ∃ (a : Fin n) (c : Fin m), i = ix2 a c := ⟨i 0, i 1, eq_ix2 i⟩
  rw [addf_apply, addf_apply, addf_apply, kernel_product d₁ hd₁, kernel_product d₂ hd₂, kernel_product d₃ hd₃,
    broadcastTo_1b_ab_apply]
  rfl

/-- THE LAW: contracting the side-by-side array against a weight array is the sum of the three partial products against
    its row bands. A finite sum split in three; no cancellation, so it holds at the infinities. -/
theorem aff_cat3 (hK : k₁ + k₂ + k₃ = K) (x₁ : Mat n k₁) (x₂ : Mat n k₂) (x₃ : Mat n k₃) (w : Mat K m)
    (β : Fin m → EReal) :
    aff (cat3 hK x₁ x₂ x₃) w β
      = aff3 x₁ x₂ x₃ (band 0 (by omega) w) (band k₁ (by omega) w) (band (k₁ + k₂) (by omega) w) β := by
  subst hK
  funext i
  obtain ⟨a, c, rfl⟩ : ∃ (a : Fin n) (c : Fin m), i = ix2 a c := ⟨i 0, i 1, eq_ix2 i⟩
  rw [aff_apply, aff3_apply, Fin.sum_univ_add, Fin.sum_univ_add]
  congr 1
  congr 1
  · congr 1
    · refine Finset.sum_congr rfl fun j _ => ?_
      have hj : (Fin.castAdd k₃ (Fin.castAdd k₂ j)).val < k₁ := j.isLt
      have e : cat3 rfl x₁ x₂ x₃ (ix2 a (Fin.castAdd k₃ (Fin.castAdd k₂ j))) = x₁ (ix2 a j) := by
        rw [cat3_apply, dif_pos hj]
        rfl
      rw [e]
      refine congrArg (x₁ (ix2 a j) * ·) (congrArg w ?_)
      funext ax
      match ax with
      | ⟨0, _⟩ => exact Fin.ext (by show j.val = 0 + j.val; omega)
      | ⟨1, _⟩ => rfl
    · refine Finset.sum_congr rfl fun j _ => ?_
      have hv : (Fin.castAdd k₃ (Fin.natAdd k₁ j)).val = k₁ + j.val := rfl
      have hn : ¬ (Fin.castAdd k₃ (Fin.natAdd k₁ j)).val < k₁ := by rw [hv]; omega
      have hj : (Fin.castAdd k₃ (Fin.natAdd k₁ j)).val < k₁ + k₂ := by rw [hv]; have := j.isLt; omega
      have e : cat3 rfl x₁ x₂ x₃ (ix2 a (Fin.castAdd k₃ (Fin.natAdd k₁ j))) = x₂ (ix2 a j) := by
        rw [cat3_apply, dif_neg hn, dif_pos hj]
        refine congrArg x₂ ?_
        funext ax
        match ax with
        | ⟨0, _⟩ => rfl
        | ⟨1, _⟩ => exact Fin.ext (by show k₁ + j.val - k₁ = j.val; omega)
      rw [e]
      refine congrArg (x₂ (ix2 a j) * ·) (congrArg w ?_)
      funext ax
      match ax with
      | ⟨0, _⟩ => rfl
      | ⟨1, _⟩ => rfl
  · refine Finset.sum_congr rfl fun j _ => ?_
    have hv : (Fin.natAdd (k₁ + k₂) j).val = k₁ + k₂ + j.val := rfl
    have hn₁ : ¬ (Fin.natAdd (k₁ + k₂) j).val < k₁ := by rw [hv]; omega
    have hn₂ : ¬ (Fin.natAdd (k₁ + k₂) j).val < k₁ + k₂ := by rw [hv]; omega
    have e : cat3 rfl x₁ x₂ x₃ (ix2 a (Fin.natAdd (k₁ + k₂) j)) = x₃ (ix2 a j) := by
      rw [cat3_apply, dif_neg hn₁, dif_neg hn₂]
      refine congrArg x₃ ?_
      funext ax
      match ax with
      | ⟨0, _⟩ => rfl
      | ⟨1, _⟩ => exact Fin.ext (by show k₁ + k₂ + j.val - (k₁ + k₂) = j.val; omega)
    rw [e]
    refine congrArg (x₃ (ix2 a j) * ·) (congrArg w ?_)
    funext ax
    match ax with
    | ⟨0, _⟩ => rfl
    | ⟨1, _⟩ => rfl

end Split

/-! ## A layer's row depends on the same row of its input -/

section Rows
variable {n n' k m : Nat}

/-- Row p of x' is row r of x. -/
def RowEq (x' : Mat n' k) (x : Mat n k) (p : Fin n') (r : Fin n) : Prop := ∀ j : Fin k, x' (ix2 p j) = x (ix2 r j)

theorem RowEq.aff {x' : Mat n' k} {x : Mat n k} {p : Fin n'} {r : Fin n} (h : RowEq x' x p r) (w : Mat k m)
    (β : Fin m → EReal) : RowEq (aff x' w β) (aff x w β) p r := fun c => by
  rw [aff_apply, aff_apply]
  exact congrArg (· + β c) (Finset.sum_congr rfl fun j _ => by rw [h j])

theorem RowEq.relu {x' : Mat n' k} {x : Mat n k} {p : Fin n'} {r : Fin n} (h : RowEq x' x p r) :
    RowEq (relu x') (relu x) p r := fun c => by
  rw [relu_apply, relu_apply, h c]

theorem RowEq.aff3 {k₁ k₂ k₃ : Nat} {x₁' : Mat n' k₁} {x₁ : Mat n k₁} {x₂' : Mat n' k₂} {x₂ : Mat n k₂}
    {x₃' : Mat n' k₃} {x₃ : Mat n k₃} {p : Fin n'} {r : Fin n}
    (h₁ : RowEq x₁' x₁ p r) (h₂ : RowEq x₂' x₂ p r) (h₃ : RowEq x₃' x₃ p r)
    (w₁ : Mat k₁ m) (w₂ : Mat k₂ m) (w₃ : Mat k₃ m) (β : Fin m → EReal) :
    RowEq (aff3 x₁' x₂' x₃' w₁ w₂ w₃ β) (aff3 x₁ x₂ x₃ w₁ w₂ w₃ β) p r := fun c => by
  rw [aff3_apply, aff3_apply]
  have e₁ : ∑ j : Fin k₁, x₁' (ix2 p j) * w₁ (ix2 j c) = ∑ j : Fin k₁, x₁ (ix2 r j) * w₁ (ix2 j c) :=
    Finset.sum_congr rfl fun j _ => by rw [h₁ j]
  have e₂ : ∑ j : Fin k₂, x₂' (ix2 p j) * w₂ (ix2 j c) = ∑ j : Fin k₂, x₂ (ix2 r j) * w₂ (ix2 j c) :=
    Finset.sum_congr rfl fun j _ => by rw [h₂ j]
  have e₃ : ∑ j : Fin k₃, x₃' (ix2 p j) * w₃ (ix2 j c) = ∑ j : Fin k₃, x₃ (ix2 r j) * w₃ (ix2 j c) :=
    Finset.sum_congr rfl fun j _ => by rw [h₃ j]
  rw [e₁, e₂, e₃]

end Rows

end Cert.LibDense

end
-- ==== Proof.Region0.lean ====
/-
  The first pallas_call (grid of 8 points, 512 flat rows each): what its three output arrays hold when
  the region ends, entry by entry, as functions of the arrays the region finds.
  Output 8 is the node features `img + loc` of a flat row; outputs 9 and 10 are the row's image
  projection multiplied by the upper and by the lower half of the relation weights.

  Three steps. (1) The body's arithmetic on a block of 512 rows, entry by entry: each matrix product is
  accumulated into zeros, so entry `(p, h)` is the sum over the contracted coordinate; the changes of
  float format are the identity on the extended reals; a bias vector is one row repeated down the block.
  (2) A block's row `p` at point `t` is flat row `512·t + p` of the array, and the weight and bias blocks
  are the whole arrays, so what point `t` writes back is block `t` of one function of the arrays.
  (3) Row `r` lies in the block of point `r / 512`, so the blocks cover each output array.
-/
import proofs.«428156_j38482906972413_3_alg».proof.Proof.Gen.KernelIdeal.Frame
import proofs.«428156_j38482906972413_3_alg».proof.Proof.Spec
import proofs.«428156_j38482906972413_3_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section

open Idealize.ShloMosaic Idealize.ShloMosaic.ValueIdx Idealize.ShloMosaic.TcCoe Idealize.SL.Sem
open Idealize.ShloMosaic.Pipeline (Dat)
open scoped BigOperators

namespace Cert.KernelIdeal.Region0

open Cert.KernelIdeal Cert.KernelIdeal.Gen

/-! ## Zero offsets -/

theorem off2 : (![0, 0] : Fin 2 → Nat) = fun _ => 0 := funext fun a => by
  match a with
  | ⟨0, _⟩ => rfl
  | ⟨1, _⟩ => rfl

theorem off1 : (![0] : Fin 1 → Nat) = fun _ => 0 := funext fun a => by
  match a with
  | ⟨0, _⟩ => rfl

/-! ## The body's arithmetic, entry by entry

Every product is accumulated into a zero array, the changes of float format are the identity on the
extended reals, and a bias vector is laid out as one row and repeated down the 512 rows of the block. -/

/-- A bias vector laid out as a `[1, 128]` row reads, in column `h`, the vector's entry `h`. -/
theorem biasRow_apply (b : Vec Ideal S128 .f32) (h : Fin 128) :
    (shapeCast S1x128 b shapeCasts_S128_S1x128 : S1x128.Idx → EReal) (ix2 (0 : Fin 1) h) = b (ix1 h) := by
  refine (shapeCast_addUnit_apply ![128] b shapeCasts_S128_S1x128 (ix2 (0 : Fin 1) h)).trans ?_
  refine congrArg b ?_
  funext a
  match a with
  | ⟨0, _⟩ => rfl

/-- The image projection of a block of 512 rows: entry `(p, h)` is `Σ_q x[p,q] · Wi[q,h] + bi[h]`. -/
theorem imgBlock_apply (x0 : Vec Ideal S512x2048 .f32) (w : Vec Ideal S2048x128 .f32) (b : Vec Ideal S128 .f32)
    (p : Fin 512) (h : Fin 128) :
    (k0_pay1 (F := Ideal) x0 w b : S512x128.Idx → EReal) (ix2 p h)
      = (∑ q : Fin 2048, x0 (ix2 p q) * w (ix2 q h)) + b (ix1 h) := by
  unfold k0_pay1
  refine (congrFun (Cert.LibDense.kernel_layer dot_S512x2048_S2048x128_S512x128_1_0_0_1_n_n rfl _ _ _ _) (ix2 p h)).trans ?_
  rw [Cert.LibDense.aff_apply, biasRow_apply, shapeCast_self]
  rfl

/-- The node features of a block: image projection plus location projection, entry by entry. -/
theorem nodeBlock_apply (x0 : Vec Ideal S512x2048 .f32) (w : Vec Ideal S2048x128 .f32) (b : Vec Ideal S128 .f32)
    (l : Vec Ideal S512x5 .f32) (wl : Vec Ideal S5x128 .f32) (bl : Vec Ideal S128 .f32) (p : Fin 512) (h : Fin 128) :
    (k0_pay2 (F := Ideal) x0 w b l wl bl : S512x128.Idx → EReal) (ix2 p h)
      = ((∑ q : Fin 2048, x0 (ix2 p q) * w (ix2 q h)) + b (ix1 h))
        + ((∑ q : Fin 5, l (ix2 p q) * wl (ix2 q h)) + bl (ix1 h)) := by
  unfold k0_pay2
  refine (addf_apply _ _ (ix2 p h)).trans ?_
  refine congrArg₂ (· + ·) (imgBlock_apply x0 w b p h) ?_
  refine (congrFun (Cert.LibDense.kernel_layer dot_S512x5_S5x128_S512x128_1_0_0_1_n_n rfl _ _ _ _) (ix2 p h)).trans ?_
  rw [Cert.LibDense.aff_apply, biasRow_apply, shapeCast_self]
  rfl

/-- The block's image projection multiplied by a `[128, 128]` weight array: entry `(p, k)` is
    `Σ_h img[p,h] · Wh[h,k]`. -/
theorem projBlock4_apply (x0 : Vec Ideal S512x2048 .f32) (w : Vec Ideal S2048x128 .f32) (b : Vec Ideal S128 .f32)
    (wh : Vec Ideal S128x128 .f32) (p : Fin 512) (k : Fin 128) :
    (k0_pay4 (F := Ideal) x0 w b wh : S512x128.Idx → EReal) (ix2 p k)
      = ∑ h : Fin 128, ((∑ q : Fin 2048, x0 (ix2 p q) * w (ix2 q h)) + b (ix1 h)) * wh (ix2 h k) := by
  unfold k0_pay4 k0_pay3
  refine (Cert.LibDense.kernel_product dot_S512x128_S128x128_S512x128_1_0_0_1_n_n rfl _ _ p k).trans ?_
  rw [shapeCast_self]
  refine Finset.sum_congr rfl fun h _ => ?_
  exact congrArg (· * wh (ix2 h k)) (imgBlock_apply x0 w b p h)

theorem projBlock5_apply (x0 : Vec Ideal S512x2048 .f32) (w : Vec Ideal S2048x128 .f32) (b : Vec Ideal S128 .f32)
    (wh : Vec Ideal S128x128 .f32) (p : Fin 512) (k : Fin 128) :
    (k0_pay5 (F := Ideal) x0 w b wh : S512x128.Idx → EReal) (ix2 p k)
      = ∑ h : Fin 128, ((∑ q : Fin 2048, x0 (ix2 p q) * w (ix2 q h)) + b (ix1 h)) * wh (ix2 h k) := by
  unfold k0_pay5 k0_pay3
  refine (Cert.LibDense.kernel_product dot_S512x128_S128x128_S512x128_1_0_0_1_n_n rfl _ _ p k).trans ?_
  rw [shapeCast_self]
  refine Finset.sum_congr rfl fun h _ => ?_
  exact congrArg (· * wh (ix2 h k)) (imgBlock_apply x0 w b p h)

/-- A block whose row `p` is row `r` of the arrays `X`, `L`: its node features at `(p, h)` are those of flat row `r`. -/
theorem nodeBlock_eq (x0 : Vec Ideal S512x2048 .f32) (x1 : Vec Ideal S512x5 .f32) (x2 : Vec Ideal S2048x128 .f32)
    (x3 : Vec Ideal S128 .f32) (x4 : Vec Ideal S5x128 .f32) (x5 : Vec Ideal S128 .f32)
    (X : Cert.Spec.Arr2 4096 2048 EReal) (L : Cert.Spec.Arr2 4096 5 EReal) (Wi : Cert.Spec.Arr2 2048 128 EReal)
    (bi : Cert.Spec.Arr1 128 EReal) (Wl : Cert.Spec.Arr2 5 128 EReal) (bl : Cert.Spec.Arr1 128 EReal)
    (p : Fin 512) (h : Fin 128) (r : Fin 4096)
    (hx : ∀ q : Fin 2048, x0 (ix2 p q) = X (ix2 r q)) (hl : ∀ q : Fin 5, x1 (ix2 p q) = L (ix2 r q))
    (h2 : x2 = Wi) (h3 : x3 = bi) (h4 : x4 = Wl) (h5 : x5 = bl) :
    (k0_pay2 (F := Ideal) x0 x2 x3 x1 x4 x5 : S512x128.Idx → EReal) (ix2 p h) = Cert.Spec.nodeFlat X L Wi bi Wl bl r h := by
  subst h2 h3 h4 h5
  rw [nodeBlock_apply]
  unfold Cert.Spec.nodeFlat Cert.Spec.imgFlat Cert.Spec.locFlat
  simp only [hx, hl]

theorem projBlock4_eq (x0 : Vec Ideal S512x2048 .f32) (x2 : Vec Ideal S2048x128 .f32) (x3 : Vec Ideal S128 .f32)
    (x6 : Vec Ideal S128x128 .f32)
    (X : Cert.Spec.Arr2 4096 2048 EReal) (Wi : Cert.Spec.Arr2 2048 128 EReal) (bi : Cert.Spec.Arr1 128 EReal)
    (Wh : Cert.Spec.Arr2 128 128 EReal) (p : Fin 512) (k : Fin 128) (r : Fin 4096)
    (hx : ∀ q : Fin 2048, x0 (ix2 p q) = X (ix2 r q)) (h2 : x2 = Wi) (h3 : x3 = bi) (h6 : x6 = Wh) :
    (k0_pay4 (F := Ideal) x0 x2 x3 x6 : S512x128.Idx → EReal) (ix2 p k) = Cert.Spec.projFlat X Wi bi Wh r k := by
  subst h2 h3 h6
  rw [projBlock4_apply]
  unfold Cert.Spec.projFlat Cert.Spec.imgFlat
  simp only [hx]

theorem projBlock5_eq (x0 : Vec Ideal S512x2048 .f32) (x2 : Vec Ideal S2048x128 .f32) (x3 : Vec Ideal S128 .f32)
    (x7 : Vec Ideal S128x128 .f32)
    (X : Cert.Spec.Arr2 4096 2048 EReal) (Wi : Cert.Spec.Arr2 2048 128 EReal) (bi : Cert.Spec.Arr1 128 EReal)
    (Wh : Cert.Spec.Arr2 128 128 EReal) (p : Fin 512) (k : Fin 128) (r : Fin 4096)
    (hx : ∀ q : Fin 2048, x0 (ix2 p q) = X (ix2 r q)) (h2 : x2 = Wi) (h3 : x3 = bi) (h7 : x7 = Wh) :
    (k0_pay5 (F := Ideal) x0 x2 x3 x7 : S512x128.Idx → EReal) (ix2 p k) = Cert.Spec.projFlat X Wi bi Wh r k := by
  subst h2 h3 h7
  rw [projBlock5_apply]
  unfold Cert.Spec.projFlat Cert.Spec.imgFlat
  simp only [hx]

/-! ## The windows' blocks, read off the arrays

Point `t` of the grid works on rows `512·t … 512·t + 511` of the row-blocked arrays (the image features, the
locations, the three outputs); the weight and bias windows are the whole arrays at every point. A block's
coordinate is its block index times the block's extent plus the coordinate inside the block. -/

variable (V : (c : Dev nD) → (b : Ref sig .tc) → Buf (Elt Ideal) ((c : Thread nD τ).loc b))

/-- The block index of every row-blocked window is the point's number along the rows and 0 along the columns. -/
theorem rowIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The weight and bias windows sit at block index 0 at every point. -/
theorem wholeIndex : ∀ t : Fin cfg0.N,
    win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `p` of the image-feature block at point `t` is flat row `512·t + p`. -/
theorem xBlock_apply (c : Dev nD) (t : Fin cfg0.N) (p : Fin 512) (q : Fin 2048) (r : Fin 4096)
    (hr : r.val = 512 * t.val + p.val) :
    (iblk0 V c 0 t : Vec Ideal S512x2048 .f32) (ix2 p q) = (V c main_v2 : S4096x2048.Idx → EReal) (ix2 r q) := by
  obtain ⟨e0, e1, -⟩ := rowIndex t
  unfold iblk0
  rw [View.read_apply]
  show (V c main_v2 : S4096x2048.Idx → EReal) (((cfg0.win 0).blk t).view.emb (ix2 p q)) = _
  refine congrArg _ ?_
  funext a
  apply Fin.ext
  match a with
  | ⟨0, _⟩ => show win0_0.index t (0 : Fin 2) * 512 + 1 * p.val = r.val; omega
  | ⟨1, _⟩ => show win0_0.index t (1 : Fin 2) * 2048 + 1 * q.val = q.val; omega

/-- Row `p` of the location block at point `t` is flat row `512·t + p`. -/
theorem lBlock_apply (c : Dev nD) (t : Fin cfg0.N) (p : Fin 512) (q : Fin 5) (r : Fin 4096)
    (hr : r.val = 512 * t.val + p.val) :
    (iblk0 V c 1 t : Vec Ideal S512x5 .f32) (ix2 p q) = (V c main_v3 : S4096x5.Idx → EReal) (ix2 r q) := by
  obtain ⟨-, -, e0, e1, -⟩ := rowIndex t
  unfold iblk0
  rw [View.read_apply]
  show (V c main_v3 : S4096x5.Idx → EReal) (((cfg0.win 1).blk t).view.emb (ix2 p q)) = _
  refine congrArg _ ?_
  funext a
  apply Fin.ext
  match a with
  | ⟨0, _⟩ => show win0_1.index t (0 : Fin 2) * 512 + 1 * p.val = r.val; omega
  | ⟨1, _⟩ => show win0_1.index t (1 : Fin 2) * 5 + 1 * q.val = q.val; omega

theorem wiBlock (c : Dev nD) (t : Fin cfg0.N) :
    (iblk0 V c 2 t : Vec Ideal S2048x128 .f32) = (V c main_arg4 : S2048x128.Idx → EReal) := by
  obtain ⟨e0, e1, -⟩ := wholeIndex t
  unfold iblk0
  funext j
  rw [View.read_apply]
  show (V c main_arg4 : S2048x128.Idx → EReal) (((cfg0.win 2).blk t).view.emb j) = V c main_arg4 j
  refine congrArg _ ?_
  funext a
  apply Fin.ext
  match a with
  | ⟨0, _⟩ => show win0_2.index t (0 : Fin 2) * 2048 + 1 * (j 0).val = (j 0).val; omega
  | ⟨1, _⟩ => show win0_2.index t (1 : Fin 2) * 128 + 1 * (j 1).val = (j 1).val; omega

theorem biBlock (c : Dev nD) (t : Fin cfg0.N) :
    (iblk0 V c 3 t : Vec Ideal S128 .f32) = (V c main_arg5 : S128.Idx → EReal) := by
  obtain ⟨-, -, e0, -⟩ := wholeIndex t
  unfold iblk0
  funext j
  rw [View.read_apply]
  show (V c main_arg5 : S128.Idx → EReal) (((cfg0.win 3).blk t).view.emb j) = V c main_arg5 j
  refine congrArg _ ?_
  funext a
  apply Fin.ext
  match a with
  | ⟨0, _⟩ => show win0_3.index t (0 : Fin 1) * 128 + 1 * (j 0).val = (j 0).val; omega

theorem wlBlock (c : Dev nD) (t : Fin cfg0.N) :
    (iblk0 V c 4 t : Vec Ideal S5x128 .f32) = (V c main_arg6 : S5x128.Idx → EReal) := by
  obtain ⟨-, -, -, e0, e1, -⟩ := wholeIndex t
  unfold iblk0
  funext j
  rw [View.read_apply]
  show (V c main_arg6 : S5x128.Idx → EReal) (((cfg0.win 4).blk t).view.emb j) = V c main_arg6 j
  refine congrArg _ ?_
  funext a
  apply Fin.ext
  match a with
  | ⟨0, _⟩ => show win0_4.index t (0 : Fin 2) * 5 + 1 * (j 0).val = (j 0).val; omega
  | ⟨1, _⟩ => show win0_4.index t (1 : Fin 2) * 128 + 1 * (j 1).val = (j 1).val; omega

theorem blBlock (c : Dev nD) (t : Fin cfg0.N) :
    (iblk0 V c 5 t : Vec Ideal S128 .f32) = (V c main_arg7 : S128.Idx → EReal) := by
  obtain ⟨-, -, -, -, -, e0, -⟩ := wholeIndex t
  unfold iblk0
  funext j
  rw [View.read_apply]
  show (V c main_arg7 : S128.Idx → EReal) (((cfg0.win 5).blk t).view.emb j) = V c main_arg7 j
  refine congrArg _ ?_
  funext a
  apply Fin.ext
  match a with
  | ⟨0, _⟩ => show win0_5.index t (0 : Fin 1) * 128 + 1 * (j 0).val = (j 0).val; omega

theorem wsBlock (c : Dev nD) (t : Fin cfg0.N) :
    (iblk0 V c 6 t : Vec Ideal S128x128 .f32) = (V c main_v0 : S128x128.Idx → EReal) := by
  obtain ⟨-, -, -, -, -, -, e0, e1, -⟩ := wholeIndex t
  unfold iblk0
  funext j
  rw [View.read_apply]
  show (V c main_v0 : S128x128.Idx → EReal) (((cfg0.win 6).blk t).view.emb j) = V c main_v0 j
  refine congrArg _ ?_
  funext a
  apply Fin.ext
  match a with
  | ⟨0, _⟩ => show win0_6.index t (0 : Fin 2) * 128 + 1 * (j 0).val = (j 0).val; omega
  | ⟨1, _⟩ => show win0_6.index t (1 : Fin 2) * 128 + 1 * (j 1).val = (j 1).val; omega

theorem wdBlock (c : Dev nD) (t : Fin cfg0.N) :
    (iblk0 V c 7 t : Vec Ideal S128x128 .f32) = (V c main_v1 : S128x128.Idx → EReal) := by
  obtain ⟨-, -, -, -, -, -, -, -, e0, e1⟩ := wholeIndex t
  unfold iblk0
  funext j
  rw [View.read_apply]
  show (V c main_v1 : S128x128.Idx → EReal) (((cfg0.win 7).blk t).view.emb j) = V c main_v1 j
  refine congrArg _ ?_
  funext a
  apply Fin.ext
  match a with
  | ⟨0, _⟩ => show win0_7.index t (0 : Fin 2) * 128 + 1 * (j 0).val = (j 0).val; omega
  | ⟨1, _⟩ => show win0_7.index t (1 : Fin 2) * 128 + 1 * (j 1).val = (j 1).val; omega

/-! ## From blocks to the arrays

What point `t` writes back of each output is block `t` of one function of the arrays the region finds;
row `r` is covered by point `r / 512`; so each output array ends holding that function. -/

/-- Output 8 as a function of its index: the node features of the flat row. -/
abbrev nodeArr (c : Dev nD) : S4096x128.Idx → EReal := fun i =>
  Cert.Spec.nodeFlat (V c main_v2) (V c main_v3) (V c main_arg4) (V c main_arg5) (V c main_arg6) (V c main_arg7) (i 0) (i 1)

/-- Outputs 9 and 10 as functions of their index, over the half `Wh` of the relation weights. -/
abbrev projArr (c : Dev nD) (Wh : Cert.Spec.Arr2 128 128 EReal) : S4096x128.Idx → EReal := fun i =>
  Cert.Spec.projFlat (V c main_v2) (V c main_arg4) (V c main_arg5) Wh (i 0) (i 1)

theorem flushed8 (c : Dev nD) (t : Fin cfg0.N) :
    (dat0 V c).flushed 8 t = ((cfg0.win 8).blk t).view.read (Elt Ideal) (nodeArr V c) := by
  show (cfg0.win 8).cut (grid0.coords t) ((dat0 V c).after 8 t) = _
  rw [after0_8]
  unfold out0_8
  rw [View.canon_unit_zero off2]
  simp only [View.ld_unit_zero (S := S512x2048) off2, View.ld_unit_zero (S := S2048x128) off2,
    View.ld_unit_zero (S := S128) off1, View.ld_unit_zero (S := S512x5) off2, View.ld_unit_zero (S := S5x128) off2]
  obtain ⟨-, -, -, -, e0, e1, -⟩ := rowIndex t
  have hN : cfg0.N = 8 := N_0
  have ht : t.val < 8 := hN ▸ t.isLt
  show (k0_pay2 (F := Ideal) (iblk0 V c 0 t) (iblk0 V c 2 t) (iblk0 V c 3 t) (iblk0 V c 1 t) (iblk0 V c 4 t) (iblk0 V c 5 t) : S512x128.Idx → EReal)
    = fun j : S512x128.Idx => nodeArr V c (((cfg0.win 8).blk t).view.emb j)
  funext j
  obtain ⟨p, h, rfl⟩ : ∃ (p : Fin 512) (h : Fin 128), j = ix2 p h := ⟨j 0, j 1, eq_ix2 j⟩
  have hp : p.val < 512 := p.isLt
  refine (nodeBlock_eq (iblk0 V c 0 t) (iblk0 V c 1 t) (iblk0 V c 2 t) (iblk0 V c 3 t) (iblk0 V c 4 t) (iblk0 V c 5 t)
    (V c main_v2) (V c main_v3) (V c main_arg4) (V c main_arg5) (V c main_arg6) (V c main_arg7) p h ⟨512 * t.val + p.val, by omega⟩
    (fun q => xBlock_apply V c t p q _ rfl) (fun q => lBlock_apply V c t p q _ rfl)
    (wiBlock V c t) (biBlock V c t) (wlBlock V c t) (blBlock V c t)).trans ?_
  exact congrArg₂ (Cert.Spec.nodeFlat (V c main_v2) (V c main_v3) (V c main_arg4) (V c main_arg5) (V c main_arg6) (V c main_arg7))
    (Fin.ext (by show 512 * t.val + p.val = win0_8.index t (0 : Fin 2) * 512 + 1 * p.val; omega))
    (Fin.ext (by show h.val = win0_8.index t (1 : Fin 2) * 128 + 1 * h.val; omega))

theorem flushed9 (c : Dev nD) (t : Fin cfg0.N) :
    (dat0 V c).flushed 9 t = ((cfg0.win 9).blk t).view.read (Elt Ideal) (projArr V c (V c main_v0)) := by
  show (cfg0.win 9).cut (grid0.coords t) ((dat0 V c).after 9 t) = _
  rw [after0_9]
  unfold out0_9
  rw [View.canon_unit_zero off2]
  simp only [View.ld_unit_zero (S := S512x2048) off2, View.ld_unit_zero (S := S2048x128) off2,
    View.ld_unit_zero (S := S128) off1, View.ld_unit_zero (S := S128x128) off2]
  obtain ⟨-, -, -, -, -, -, e0, e1, -⟩ := rowIndex t
  have hN : cfg0.N = 8 := N_0
  have ht : t.val < 8 := hN ▸ t.isLt
  show (k0_pay4 (F := Ideal) (iblk0 V c 0 t) (iblk0 V c 2 t) (iblk0 V c 3 t) (iblk0 V c 6 t) : S512x128.Idx → EReal)
    = fun j : S512x128.Idx => projArr V c (V c main_v0) (((cfg0.win 9).blk t).view.emb j)
  funext j
  obtain ⟨p, k, rfl⟩ : ∃ (p : Fin 512) (k : Fin 128), j = ix2 p k := ⟨j 0, j 1, eq_ix2 j⟩
  have hp : p.val < 512 := p.isLt
  refine (projBlock4_eq (iblk0 V c 0 t) (iblk0 V c 2 t) (iblk0 V c 3 t) (iblk0 V c 6 t)
    (V c main_v2) (V c main_arg4) (V c main_arg5) (V c main_v0) p k ⟨512 * t.val + p.val, by omega⟩
    (fun q => xBlock_apply V c t p q _ rfl) (wiBlock V c t) (biBlock V c t) (wsBlock V c t)).trans ?_
  exact congrArg₂ (Cert.Spec.projFlat (V c main_v2) (V c main_arg4) (V c main_arg5) (V c main_v0))
    (Fin.ext (by show 512 * t.val + p.val = win0_9.index t (0 : Fin 2) * 512 + 1 * p.val; omega))
    (Fin.ext (by show k.val = win0_9.index t (1 : Fin 2) * 128 + 1 * k.val; omega))

theorem flushed10 (c : Dev nD) (t : Fin cfg0.N) :
    (dat0 V c).flushed 10 t = ((cfg0.win 10).blk t).view.read (Elt Ideal) (projArr V c (V c main_v1)) := by
  show (cfg0.win 10).cut (grid0.coords t) ((dat0 V c).after 10 t) = _
  rw [after0_10]
  unfold out0_10
  rw [View.canon_unit_zero off2]
  simp only [View.ld_unit_zero (S := S512x2048) off2, View.ld_unit_zero (S := S2048x128) off2,
    View.ld_unit_zero (S := S128) off1, View.ld_unit_zero (S := S128x128) off2]
  obtain ⟨-, -, -, -, -, -, -, -, e0, e1⟩ := rowIndex t
  have hN : cfg0.N = 8 := N_0
  have ht : t.val < 8 := hN ▸ t.isLt
  show (k0_pay5 (F := Ideal) (iblk0 V c 0 t) (iblk0 V c 2 t) (iblk0 V c 3 t) (iblk0 V c 7 t) : S512x128.Idx → EReal)
    = fun j : S512x128.Idx => projArr V c (V c main_v1) (((cfg0.win 10).blk t).view.emb j)
  funext j
  obtain ⟨p, k, rfl⟩ : ∃ (p : Fin 512) (k : Fin 128), j = ix2 p k := ⟨j 0, j 1, eq_ix2 j⟩
  have hp : p.val < 512 := p.isLt
  refine (projBlock5_eq (iblk0 V c 0 t) (iblk0 V c 2 t) (iblk0 V c 3 t) (iblk0 V c 7 t)
    (V c main_v2) (V c main_arg4) (V c main_arg5) (V c main_v1) p k ⟨512 * t.val + p.val, by omega⟩
    (fun q => xBlock_apply V c t p q _ rfl) (wiBlock V c t) (biBlock V c t) (wdBlock V c t)).trans ?_
  exact congrArg₂ (Cert.Spec.projFlat (V c main_v2) (V c main_arg4) (V c main_arg5) (V c main_v1))
    (Fin.ext (by show 512 * t.val + p.val = win0_10.index t (0 : Fin 2) * 512 + 1 * p.val; omega))
    (Fin.ext (by show k.val = win0_10.index t (1 : Fin 2) * 128 + 1 * k.val; omega))

/-- The point whose block holds row `r`: `r / 512`. -/
theorem pointOf (i : S4096x128.Idx) : ∃ T : Fin cfg0.N, T.val = (i 0).val / 512 := by
  have hi0 : (i 0).val < 4096 := (i 0).isLt
  have hN : cfg0.N = 8 := N_0
  exact ⟨⟨(i 0).val / 512, by rw [hN]; omega⟩, rfl⟩

theorem cover8 (i : S4096x128.Idx) :
    ∃ t : Fin cfg0.N, (cfg0.win 8).flush t = true ∧ i ∈ ((cfg0.win 8).blk t).view.set := by
  have hi0 : (i 0).val < 4096 := (i 0).isLt
  have hi1 : (i 1).val < 128 := (i 1).isLt
  obtain ⟨T, hT⟩ := pointOf i
  obtain ⟨-, -, -, -, e0, e1, -⟩ := rowIndex T
  refine ⟨T, flush0_8 T, ?_⟩
  show i ∈ ((View.whole main_v4_0).slice (win0_8.rect T)).set
  rw [View.set_slice_whole, Rect.mem_set_unit]
  intro a
  match a with
  | ⟨0, _⟩ => show win0_8.index T (0 : Fin 2) * 512 ≤ (i 0).val ∧ (i 0).val < win0_8.index T (0 : Fin 2) * 512 + 512; omega
  | ⟨1, _⟩ => show win0_8.index T (1 : Fin 2) * 128 ≤ (i 1).val ∧ (i 1).val < win0_8.index T (1 : Fin 2) * 128 + 128; omega

theorem cover9 (i : S4096x128.Idx) :
    ∃ t : Fin cfg0.N, (cfg0.win 9).flush t = true ∧ i ∈ ((cfg0.win 9).blk t).view.set := by
  have hi0 : (i 0).val < 4096 := (i 0).isLt
  have hi1 : (i 1).val < 128 := (i 1).isLt
  obtain ⟨T, hT⟩ := pointOf i
  obtain ⟨-, -, -, -, -, -, e0, e1, -⟩ := rowIndex T
  refine ⟨T, flush0_9 T, ?_⟩
  show i ∈ ((View.whole main_v4_1).slice (win0_9.rect T)).set
  rw [View.set_slice_whole, Rect.mem_set_unit]
  intro a
  match a with
  | ⟨0, _⟩ => show win0_9.index T (0 : Fin 2) * 512 ≤ (i 0).val ∧ (i 0).val < win0_9.index T (0 : Fin 2) * 512 + 512; omega
  | ⟨1, _⟩ => show win0_9.index T (1 : Fin 2) * 128 ≤ (i 1).val ∧ (i 1).val < win0_9.index T (1 : Fin 2) * 128 + 128; omega

theorem cover10 (i : S4096x128.Idx) :
    ∃ t : Fin cfg0.N, (cfg0.win 10).flush t = true ∧ i ∈ ((cfg0.win 10).blk t).view.set := by
  have hi0 : (i 0).val < 4096 := (i 0).isLt
  have hi1 : (i 1).val < 128 := (i 1).isLt
  obtain ⟨T, hT⟩ := pointOf i
  obtain ⟨-, -, -, -, -, -, -, -, e0, e1⟩ := rowIndex T
  refine ⟨T, flush0_10 T, ?_⟩
  show i ∈ ((View.whole main_v4_2).slice (win0_10.rect T)).set
  rw [View.set_slice_whole, Rect.mem_set_unit]
  intro a
  match a with
  | ⟨0, _⟩ => show win0_10.index T (0 : Fin 2) * 512 ≤ (i 0).val ∧ (i 0).val < win0_10.index T (0 : Fin 2) * 512 + 512; omega
  | ⟨1, _⟩ => show win0_10.index T (1 : Fin 2) * 128 ≤ (i 1).val ∧ (i 1).val < win0_10.index T (1 : Fin 2) * 128 + 128; omega

theorem nodeArr_final (c : Dev nD) : (dat0 V c).arrAt 8 cfg0.N = nodeArr V c :=
  (dat0 V c).arrAt_eq_of_cover 8 (nodeArr V c) (fun t _ => flushed8 V c t) cover8

theorem projSrc_final (c : Dev nD) : (dat0 V c).arrAt 9 cfg0.N = projArr V c (V c main_v0) :=
  (dat0 V c).arrAt_eq_of_cover 9 (projArr V c (V c main_v0)) (fun t _ => flushed9 V c t) cover9

theorem projDst_final (c : Dev nD) : (dat0 V c).arrAt 10 cfg0.N = projArr V c (V c main_v1) :=
  (dat0 V c).arrAt_eq_of_cover 10 (projArr V c (V c main_v1)) (fun t _ => flushed10 V c t) cover10

/-- Output 8 (`[4096, 128]`) at row `r`, column `h`: the node features of flat row `r`. -/
theorem node_apply (c : Dev nD) (r : Fin 4096) (h : Fin 128) :
    ((dat0 V c).arrAt 8 cfg0.N : S4096x128.Idx → EReal) (ix2 r h)
      = Cert.Spec.nodeFlat (V c main_v2) (V c main_v3) (V c main_arg4) (V c main_arg5) (V c main_arg6) (V c main_arg7) r h :=
  congrFun (nodeArr_final V c) (ix2 r h)

/-- Output 9 at row `r`, column `k`: the row's image projection through the upper half of the relation weights. -/
theorem projSrc_apply (c : Dev nD) (r : Fin 4096) (k : Fin 128) :
    ((dat0 V c).arrAt 9 cfg0.N : S4096x128.Idx → EReal) (ix2 r k)
      = Cert.Spec.projFlat (V c main_v2) (V c main_arg4) (V c main_arg5) (V c main_v0) r k :=
  congrFun (projSrc_final V c) (ix2 r k)

/-- Output 10 at row `r`, column `k`: the same through the lower half. -/
theorem projDst_apply (c : Dev nD) (r : Fin 4096) (k : Fin 128) :
    ((dat0 V c).arrAt 10 cfg0.N : S4096x128.Idx → EReal) (ix2 r k)
      = Cert.Spec.projFlat (V c main_v2) (V c main_arg4) (V c main_arg5) (V c main_v1) r k :=
  congrFun (projDst_final V c) (ix2 r k)

end Cert.KernelIdeal.Region0

end
-- ==== Proof.Region1.lean ====
/-
  The second pallas_call (grid of 32 points, one batch each; inside a point a counted loop of 4 trips
  writes 2048 edges each): what its output array holds when the region ends, entry by entry.
  An edge's row is the source's row of the first table plus the destination's row of the second plus
  the bias: the product of a 0/1 row with a table selects one row of the table.

  The order of the argument:
  * words — clamping a signed node number into 0 … 127 (a signed maximum with 0, then a signed minimum
    with 127) gives the word of the row `rowOf` names, so the comparison of the clamped number with
    the column number, widened and read as a float, is the indicator of `column = rowOf number`;
  * one trip's payload — the 0/1 matrix `[2048, 128]` times a `[128, 128]` table is, at `(j, k)`,
    `Σ_n [n = rowOf (number j)] · table[n, k] = table[rowOf (number j), k]`; two such products and the
    bias row are added;
  * one point — each of the four trips stores its payload at the row offset it loaded its node
    numbers from, so every piece written into the point's `[1, 8192, 128]` block is the restriction
    of ONE function of the block index (`blockG`), and the four pieces cover the block;
  * the array — point `t` reads batch `t` of the two tables and the whole of the node numbers and of
    the bias, and writes back batch `t` of the output; the 32 blocks cover the array.
-/
import proofs.«428156_j38482906972413_3_alg».proof.Proof.Gen.KernelIdeal.Frame
import proofs.«428156_j38482906972413_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384
noncomputable section

open Idealize.ShloMosaic Idealize.ShloMosaic.ValueIdx Idealize.ShloMosaic.TcCoe Idealize.SL.Sem
open Idealize.ShloMosaic.Pipeline (Dat)

namespace Cert.KernelIdeal.Region1

open Cert.KernelIdeal Cert.KernelIdeal.Gen

/-! ## Words: the clamp of a signed node number is the row it selects -/

theorem maxsi_toInt (x y : BitVec 32) : (IntOp.maxsi x y).toInt = max x.toInt y.toInt := by
  unfold IntOp.maxsi
  split <;> rename_i hc <;> simp only [BitVec.slt, decide_eq_true_eq] at hc <;> omega

theorem minsi_toInt (x y : BitVec 32) : (IntOp.minsi x y).toInt = min x.toInt y.toInt := by
  unfold IntOp.minsi
  split <;> rename_i hc <;> simp only [BitVec.slt, decide_eq_true_eq] at hc <;> omega

/-- A row number read as a signed word is itself. -/
theorem toInt_ofNat_row (a : ℕ) (ha : a < 128) : (BitVec.ofNat 32 a).toInt = a := by
  have h1 : (BitVec.ofNat 32 a).toNat = a := by
    rw [BitVec.toNat_ofNat]; exact Nat.mod_eq_of_lt (by omega)
  rw [BitVec.toInt_eq_toNat_cond, h1, if_pos (by omega)]

/-- Equality of words as a bit. -/
theorem cmpi_eq_one_iff (a b : BitVec 32) : IntOp.cmpi .eq a b = 1#1 ↔ a = b := by
  show BitVec.ofBool (a == b) = 1#1 ↔ a = b
  rw [← beq_iff_eq (a := a) (b := b)]
  generalize (a == b) = c
  cases c <;> decide

/-- `min 127 (max 0 w)` on signed words is the word of the row `rowOf w`. -/
theorem clamp_eq (w : BitVec 32) :
    IntOp.minsi 127#32 (IntOp.maxsi 0#32 w) = BitVec.ofNat 32 (Cert.Spec.rowOf w).val := by
  apply BitVec.eq_of_toInt_eq
  rw [minsi_toInt, maxsi_toInt, toInt_ofNat_row _ (Cert.Spec.rowOf w).isLt]
  have h0 : (0#32 : BitVec 32).toInt = 0 := by decide
  have h127 : (127#32 : BitVec 32).toInt = 127 := by decide
  rw [h0, h127]
  show min 127 (max 0 w.toInt) = (((min 127 (max 0 w.toInt)).toNat : Nat) : Int)
  omega

/-- The comparison bit of the clamped number with column `n`, widened and read as a float, is the
    indicator of `n = rowOf w`. -/
theorem onehot_entry (w : BitVec 32) (n : Fin 128) :
    (FloatOps.sitofp (F := Ideal) .f32
        ((IntOp.cmpi .eq (IntOp.minsi 127#32 (IntOp.maxsi 0#32 w)) (BitVec.ofNat 32 n.val)).setWidth 32) : EReal)
      = if n = Cert.Spec.rowOf w then 1 else 0 := by
  rw [clamp_eq]
  by_cases h : n = Cert.Spec.rowOf w
  · subst h
    rw [if_pos rfl, (cmpi_eq_one_iff _ _).mpr rfl]
    show (((((1#1 : BitVec 1).setWidth 32).toInt : ℝ)) : EReal) = 1
    rw [show ((1#1 : BitVec 1).setWidth 32).toInt = 1 by decide]
    simp
  · rw [if_neg h]
    have hne : ¬ IntOp.cmpi .eq (BitVec.ofNat 32 (Cert.Spec.rowOf w).val) (BitVec.ofNat 32 n.val) = 1#1 := by
      rw [cmpi_eq_one_iff]
      intro he
      apply h
      have := congrArg BitVec.toNat he
      simp only [BitVec.toNat_ofNat] at this
      apply Fin.ext
      have h1 := n.isLt
      have h2 := (Cert.Spec.rowOf w).isLt
      omega
    rw [eq_zero_of_ne_one hne]
    show (((((0#1 : BitVec 1).setWidth 32).toInt : ℝ)) : EReal) = 0
    rw [show ((0#1 : BitVec 1).setWidth 32).toInt = 0 by decide]
    simp

/-! ## Two layout reads the payload needs: a column vector and its broadcast along the rows -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a `[2048, 128]` matrix with a `[128, 128]` table, entry by entry -/

theorem lhs_axis0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl

theorem lhs_axis1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q

theorem rhs_axis0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q

theorem rhs_axis1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

/-- The product into a zero accumulator at `(j, k)` is `Σ_n A[j, n] · B[n, k]`. -/
theorem matmul_entry (A : FVec Ideal S2048x128 .bf16) (B : FVec Ideal S128x128 .bf16) (j : Fin 2048) (k : Fin 128) :
    (matmul dot_S2048x128_S128x128_S2048x128_1_0_0_1_n_n none A B (constant S2048x128 .f32 0x00000000#32) : FVec Ideal S2048x128 .f32) (ix2 j k)
      = ∑ n : Fin 128, A (ix2 j n) * B (ix2 n k) := by
  refine (Ideal.matmul_constant_zero_apply dot_S2048x128_S128x128_S2048x128_1_0_0_1_n_n none A B (ix2 j k)).trans ?_
  rw [← Equiv.sum_comp (contrEquiv1 dot_S2048x128_S128x128_S2048x128_1_0_0_1_n_n 128 rfl rfl).symm]
  refine Finset.sum_congr rfl fun n _ => ?_
  have hk := contrEquiv1_symm_val dot_S2048x128_S128x128_S2048x128_1_0_0_1_n_n 128 rfl rfl n
  have el : dot_S2048x128_S128x128_S2048x128_1_0_0_1_n_n.lhsIdx (ix2 j k)
      ((contrEquiv1 dot_S2048x128_S128x128_S2048x128_1_0_0_1_n_n 128 rfl rfl).symm n) = ix2 j n :=
    funext fun a => Fin.ext (by
      match a with
      | ⟨0, _⟩ => exact lhs_axis0 _ _
      | ⟨1, _⟩ => exact (lhs_axis1 _ _).trans hk)
  have er : dot_S2048x128_S128x128_S2048x128_1_0_0_1_n_n.rhsIdx (ix2 j k)
      ((contrEquiv1 dot_S2048x128_S128x128_S2048x128_1_0_0_1_n_n 128 rfl rfl).symm n) = ix2 n k :=
    funext fun a => Fin.ext (by
      match a with
      | ⟨0, _⟩ => exact (rhs_axis0 _ _).trans hk
      | ⟨1, _⟩ => exact rhs_axis1 _ _)
  rw [el, er]

/-! ## The payload of one trip, entry by entry -/

/-- The 0/1 matrix `[2048, 128]` the kernel builds from 2048 node numbers: the clamped number of
    row `j` compared with the column number. -/
abbrev onehot (idx : Vec Ideal S2048 .i32) : FVec Ideal S2048x128 .bf16 :=
  truncf .bf16 (sitofp .f32 (extui 32 (cmpi .eq
    (broadcastTo S2048x128 (shapeCast S2048x1 (minsi (broadcast S2048 127#32) (maxsi (broadcast S2048 0#32) idx))
      shapeCasts_S2048_S2048x1) broadcasts_S2048x1_S2048x128)
    (iota .tc S2048x128 32 [1] iota_S2048x128_d1_w32)) natLt_1_32)) bitsLt_bf16_f32

/-- Its entry `(j, n)` is the indicator of `n = rowOf (idx j)`. -/
theorem onehot_apply (idx : Vec Ideal S2048 .i32) (j : Fin 2048) (n : Fin 128) :
    onehot idx (ix2 j n) = if n = Cert.Spec.rowOf (idx (ix1 j)) then 1 else 0 := by
  show FloatOps.sitofp (F := Ideal) .f32 ((IntOp.cmpi .eq
      ((broadcastTo S2048x128 (shapeCast S2048x1 (minsi (broadcast S2048 127#32) (maxsi (broadcast S2048 0#32) idx))
        shapeCasts_S2048_S2048x1) broadcasts_S2048x1_S2048x128 : IVec S2048x128 32) (ix2 j n))
      ((iota .tc S2048x128 32 [1] iota_S2048x128_d1_w32 : IVec S2048x128 32) (ix2 j n))).setWidth 32) = _
  rw [broadcastTo_a1_ab_apply, shapeCast_a_a1_apply, iota_single_apply]
  exact onehot_entry (idx (ix1 j)) n

/-- A 0/1 matrix times a table selects, in row `j`, the table's row `rowOf (idx j)`. -/
theorem select_row (tbl : FVec Ideal S1x128x128 .bf16) (idx : Vec Ideal S2048 .i32) (j : Fin 2048) (k : Fin 128) :
    (matmul dot_S2048x128_S128x128_S2048x128_1_0_0_1_n_n none (onehot idx)
        (shapeCast S128x128 tbl shapeCasts_S1x128x128_S128x128) (constant S2048x128 .f32 0x00000000#32) : FVec Ideal S2048x128 .f32) (ix2 j k)
      = tbl (ix3 (0 : Fin 1) (Cert.Spec.rowOf (idx (ix1 j))) k) := by
  refine (matmul_entry _ _ j k).trans ?_
  refine (Finset.sum_congr rfl fun n _ => ?_).trans
    (Cert.Spec.sum_indicator_mul (Cert.Spec.rowOf (idx (ix1 j))) (fun n => tbl (ix3 (0 : Fin 1) n k)))
  rw [onehot_apply, shapeCast_1ab_ab_apply]

/-- THE PAYLOAD: row `j` of the trip's `[1, 2048, 128]` block is the source's row of the first table
    plus the destination's row of the second plus the bias. -/
theorem payload_apply (v1 v3 : Vec Ideal S1x128x128 .bf16) (v5 : Vec Ideal S128 .f32) (v12 v18 : Vec Ideal S2048 .i32)
    (j : Fin 2048) (k : Fin 128) :
    (k1_pay1 (F := Ideal) v1 v3 v5 v12 v18 : S1x2048x128.Idx → EReal) (ix3 (0 : Fin 1) j k)
      = (v1 (ix3 (0 : Fin 1) (Cert.Spec.rowOf (v12 (ix1 j))) k) + v3 (ix3 (0 : Fin 1) (Cert.Spec.rowOf (v18 (ix1 j))) k))
          + v5 (ix1 k) := by
  unfold k1_pay1
  refine (shapeCast_ab_1ab_apply _ _ (0 : Fin 1) j k).trans ?_
  show ((matmul dot_S2048x128_S128x128_S2048x128_1_0_0_1_n_n none (onehot v12)
          (shapeCast S128x128 v1 shapeCasts_S1x128x128_S128x128) (constant S2048x128 .f32 0x00000000#32) : FVec Ideal S2048x128 .f32) (ix2 j k)
        + (matmul dot_S2048x128_S128x128_S2048x128_1_0_0_1_n_n none (onehot v18)
          (shapeCast S128x128 v3 shapeCasts_S1x128x128_S128x128) (constant S2048x128 .f32 0x00000000#32) : FVec Ideal S2048x128 .f32) (ix2 j k))
      + (broadcastTo S2048x128 (shapeCast S1x128 v5 shapeCasts_S128_S1x128) broadcasts_S1x128_S2048x128 : FVec Ideal S2048x128 .f32) (ix2 j k) = _
  refine congrArg₂ (· + ·) (congrArg₂ (· + ·) (select_row v1 v12 j k) (select_row v3 v18 j k)) ?_
  refine (broadcastTo_1b_ab_apply _ _ j k).trans ?_
  exact shapeCast_a_1a_apply v5 _ (0 : Fin 1) k

/-! ## One point's block: every piece the four trips write is a block of one function -/

/-- Row `e`, column `k` of a point's output block, from the point's five input blocks: the row of the
    first table the source selects, the row of the second the destination selects, the bias. -/
def edgeRow (x0 x1 : Vec Ideal S1x128x128 .bf16) (x2 x3 : Vec Ideal S8192 .i32) (x4 : Vec Ideal S128 .f32)
    (e : Fin 8192) (k : Fin 128) : EReal :=
  (x0 (ix3 (0 : Fin 1) (Cert.Spec.rowOf (x2 (ix1 e))) k) + x1 (ix3 (0 : Fin 1) (Cert.Spec.rowOf (x3 (ix1 e))) k)) + x4 (ix1 k)

/-- The whole `[1, 8192, 128]` block as one function of its index. -/
def blockG (x0 x1 : Vec Ideal S1x128x128 .bf16) (x2 x3 : Vec Ideal S8192 .i32) (x4 : Vec Ideal S128 .f32) :
    Vec Ideal S1x8192x128 .f32 :=
  fun y => edgeRow x0 x1 x2 x3 x4 (y 1) (y 2)

/-- A trip's load of 2048 node numbers at its offset reads the numbers `offset + j`. -/
theorem numbers_load (arg : Memref sig .tc .vmem S8192 .i32) (harg : arg.IsWhole) (x : Vec Ideal S8192 .i32)
    (k : Fin k1_t1_loop.trips) (j : Fin 2048) (e : Fin 8192) (he : e.val = k1_off1 k 0 + j.val) :
    View.readAt (Elt Ideal) arg.view (Rect.unit (s := S8192) (k1_off1 k) S2048.size (k1_off1_inb k)).toLoadRect (harg.unread x) (ix1 j)
      = x (ix1 e) := by
  rw [View.readAt_apply, harg.read_unread]
  refine congrArg x (funext fun a => Fin.ext ?_)
  match a with
  | ⟨0, _⟩ =>
    show ((Rect.unit (s := S8192) (k1_off1 k) S2048.size (k1_off1_inb k)).toLoadRect.idx (ix1 j) 0).val = e.val
    rw [he]
    simp only [LoadRect.idx_apply, Rect.emb_apply, Rect.off_unit, Rect.stride_unit, Nat.one_mul]

/-- The one piece a trip writes is the block of `blockG` its rectangle names: the trip's stores and
    loads sit at the same row offset. -/
theorem trip_piece (c : Dev nD) (i : grid1.Coords) (arg1 : Memref sig .tc .vmem S1x128x128 .bf16) (harg1 : arg1.IsWhole) (arg2 : Memref sig .tc .vmem S1x128x128 .bf16) (harg2 : arg2.IsWhole) (arg3 : Memref sig .tc .vmem S8192 .i32) (harg3 : arg3.IsWhole) (arg4 : Memref sig .tc .vmem S8192 .i32) (harg4 : arg4.IsWhole) (arg5 : Memref sig .tc .vmem S128 .f32) (harg5 : arg5.IsWhole) (arg6 : Memref sig .tc .vmem S1x8192x128 .f32) (harg6 : arg6.IsWhole)
    (v1 v3 : Vec Ideal S1x128x128 .bf16) (v5 : Vec Ideal S128 .f32) (x2 x3 : Vec Ideal S8192 .i32) (k : Fin k1_t1_loop.trips) :
    ∀ p ∈ tripL_k1_t1 (F := Ideal) Variants.none c none i arg1 harg1 arg2 harg2 arg3 harg3 arg4 harg4 arg5 harg5 arg6 harg6 v1 v3 v5 (harg3.unread x2) (harg4.unread x3) k,
      ∀ x : p.1.shape.Idx, p.2 x = blockG v1 v3 x2 x3 v5 (p.1.emb x) := by
  unfold tripL_k1_t1
  unfold trip_k1_t1
  dsimp only
  intro p hp
  rw [List.mem_singleton] at hp
  subst hp
  dsimp only
  intro (x : S1x2048x128.Idx)
  obtain ⟨u, j, kk, rfl⟩ : ∃ (u : Fin 1) (j : Fin 2048) (kk : Fin 128), x = ix3 u j kk := ⟨x 0, x 1, x 2, eq_ix3 x⟩
  obtain rfl : u = 0 := Subsingleton.elim _ _
  have hoff1 : k1_off2 k 1 = k1_off1 k 0 := rfl
  have hoff2 : k1_off2 k 2 = 0 := rfl
  have hlt : k1_off1 k 0 + j.val < 8192 := by
    have h1 : k1_off1 k 0 + 2048 ≤ 8192 := k1_off1_inb k 0
    have h2 := j.isLt
    omega
  refine (payload_apply v1 v3 v5 _ _ j kk).trans ?_
  rw [numbers_load arg3 harg3 x2 k j ⟨k1_off1 k 0 + j.val, hlt⟩ rfl, numbers_load arg4 harg4 x3 k j ⟨k1_off1 k 0 + j.val, hlt⟩ rfl]
  show edgeRow v1 v3 x2 x3 v5 ⟨k1_off1 k 0 + j.val, hlt⟩ kk
    = edgeRow v1 v3 x2 x3 v5
        ((Rect.unit (s := S1x8192x128) (k1_off2 k) S1x2048x128.size (k1_off2_inb k)).emb (ix3 (0 : Fin 1) j kk) 1)
        ((Rect.unit (s := S1x8192x128) (k1_off2 k) S1x2048x128.size (k1_off2_inb k)).emb (ix3 (0 : Fin 1) j kk) 2)
  refine congrArg₂ (edgeRow v1 v3 x2 x3 v5) (Fin.ext ?_) (Fin.ext ?_)
  · show k1_off1 k 0 + j.val = ((Rect.unit (s := S1x8192x128) (k1_off2 k) S1x2048x128.size (k1_off2_inb k)).emb (ix3 (0 : Fin 1) j kk) 1).val
    rw [Rect.emb_apply]
    show k1_off1 k 0 + j.val = k1_off2 k 1 + 1 * j.val
    rw [hoff1]; omega
  · show kk.val = ((Rect.unit (s := S1x8192x128) (k1_off2 k) S1x2048x128.size (k1_off2_inb k)).emb (ix3 (0 : Fin 1) j kk) 2).val
    rw [Rect.emb_apply]
    show kk.val = k1_off2 k 2 + 1 * kk.val
    rw [hoff2]; omega

/-- So are the pieces of the trips before `n`, for every `n` up to the trip count. -/
theorem trips_pieces (c : Dev nD) (i : grid1.Coords) (arg1 : Memref sig .tc .vmem S1x128x128 .bf16) (harg1 : arg1.IsWhole) (arg2 : Memref sig .tc .vmem S1x128x128 .bf16) (harg2 : arg2.IsWhole) (arg3 : Memref sig .tc .vmem S8192 .i32) (harg3 : arg3.IsWhole) (arg4 : Memref sig .tc .vmem S8192 .i32) (harg4 : arg4.IsWhole) (arg5 : Memref sig .tc .vmem S128 .f32) (harg5 : arg5.IsWhole) (arg6 : Memref sig .tc .vmem S1x8192x128 .f32) (harg6 : arg6.IsWhole)
    (v1 v3 : Vec Ideal S1x128x128 .bf16) (v5 : Vec Ideal S128 .f32) (x2 x3 : Vec Ideal S8192 .i32) :
    ∀ (n : ℕ), n ≤ k1_t1_loop.trips →
      ∀ p ∈ pb_k1_t1 (F := Ideal) Variants.none c none i arg1 harg1 arg2 harg2 arg3 harg3 arg4 harg4 arg5 harg5 arg6 harg6 v1 v3 v5 (harg3.unread x2) (harg4.unread x3) n,
        ∀ x : p.1.shape.Idx, p.2 x = blockG v1 v3 x2 x3 v5 (p.1.emb x)
  | 0, _ => fun p hp => absurd hp List.not_mem_nil
  | n + 1, hn => by
    intro p hp
    rw [show n + 1 = (⟨n, hn⟩ : Fin k1_t1_loop.trips).val + 1 from rfl, pb_k1_t1_succ] at hp
    rcases List.mem_append.mp hp with h | h
    · exact trip_piece c i arg1 harg1 arg2 harg2 arg3 harg3 arg4 harg4 arg5 harg5 arg6 harg6 v1 v3 v5 x2 x3 ⟨n, hn⟩ p h
    · exact trips_pieces c i arg1 harg1 arg2 harg2 arg3 harg3 arg4 harg4 arg5 harg5 arg6 harg6 v1 v3 v5 x2 x3 n (Nat.le_of_succ_le hn) p h

theorem zero_offsets3 : (![0, 0, 0] : Fin 3 → Nat) = fun _ => 0 := funext fun a => by fin_cases a <;> rfl
theorem zero_offsets1 : (![0] : Fin 1 → Nat) = fun _ => 0 := funext fun a => by fin_cases a <;> rfl

/-- The pieces the whole body writes into the output's staging buffer: all blocks of `blockG` of the
    five input blocks. -/
theorem body_pieces (c : Dev nD) (i : grid1.Coords) (arg1 : Memref sig .tc .vmem S1x128x128 .bf16) (harg1 : arg1.IsWhole) (arg2 : Memref sig .tc .vmem S1x128x128 .bf16) (harg2 : arg2.IsWhole) (arg3 : Memref sig .tc .vmem S8192 .i32) (harg3 : arg3.IsWhole) (arg4 : Memref sig .tc .vmem S8192 .i32) (harg4 : arg4.IsWhole) (arg5 : Memref sig .tc .vmem S128 .f32) (harg5 : arg5.IsWhole) (arg6 : Memref sig .tc .vmem S1x8192x128 .f32) (harg6 : arg6.IsWhole)
    (x0 x1 : Vec Ideal S1x128x128 .bf16) (x2 x3 : Vec Ideal S8192 .i32) (x4 : Vec Ideal S128 .f32) :
    ∀ p ∈ (kernelRun1_A (F := Ideal) c i arg1 harg1 arg2 harg2 arg3 harg3 arg4 harg4 arg5 harg5 arg6 harg6 x0 x1 x2 x3 x4).1,
      ∀ x : p.1.shape.Idx, p.2 x = blockG x0 x1 x2 x3 x4 (p.1.emb x) := by
  unfold kernelRun1_A
  dsimp only
  simp only [View.readAt_eq_ld, harg1.read_unread, harg2.read_unread, harg5.read_unread,
    View.ld_unit_zero (S := S1x128x128) zero_offsets3, View.ld_unit_zero (S := S128) zero_offsets1]
  exact trips_pieces c i arg1 harg1 arg2 harg2 arg3 harg3 arg4 harg4 arg5 harg5 arg6 harg6 x0 x1 x4 x2 x3 _ (Nat.le_refl _)

/-- What the body leaves in the output's staging buffer, entry by entry. -/
theorem staging_apply (c : Dev nD) (i : grid1.Coords) (arg1 : Memref sig .tc .vmem S1x128x128 .bf16) (harg1 : arg1.IsWhole) (arg2 : Memref sig .tc .vmem S1x128x128 .bf16) (harg2 : arg2.IsWhole) (arg3 : Memref sig .tc .vmem S8192 .i32) (harg3 : arg3.IsWhole) (arg4 : Memref sig .tc .vmem S8192 .i32) (harg4 : arg4.IsWhole) (arg5 : Memref sig .tc .vmem S128 .f32) (harg5 : arg5.IsWhole) (arg6 : Memref sig .tc .vmem S1x8192x128 .f32) (harg6 : arg6.IsWhole)
    (x0 x1 : Vec Ideal S1x128x128 .bf16) (x2 x3 : Vec Ideal S8192 .i32) (x4 : Vec Ideal S128 .f32) (y : S1x8192x128.Idx) :
    out1_A_5 (F := Ideal) c i arg1 harg1 arg2 harg2 arg3 harg3 arg4 harg4 arg5 harg5 arg6 harg6 x0 x1 x2 x3 x4 y = blockG x0 x1 x2 x3 x4 y := by
  unfold out1_A_5
  rw [View.read_writes_eq_canon _ _ _ (cover1_A_5 c i arg1 harg1 arg2 harg2 arg3 harg3 arg4 harg4 arg5 harg5 arg6 harg6 x0 x1 x2 x3 x4)]
  exact View.canon_apply_of_pieces (blockG x0 x1 x2 x3 x4) _ (body_pieces c i arg1 harg1 arg2 harg2 arg3 harg3 arg4 harg4 arg5 harg5 arg6 harg6 x0 x1 x2 x3 x4) y
    (cover1_A_5 c i arg1 harg1 arg2 harg2 arg3 harg3 arg4 harg4 arg5 harg5 arg6 harg6 x0 x1 x2 x3 x4 y)

/-! ## From the points' blocks to the array -/

variable (V : (c : Dev nD) → (b : Ref sig .tc) → Buf (Elt Ideal) ((c : Thread nD τ).loc b))

/-- The block indices of the six windows at point `t`, decided over the 32 points: the two tables and
    the output move with the batch `t`, the node numbers and the bias are whole arrays. -/
theorem block_index : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 1) = 0 ∧ win1_3.index t (0 : Fin 1) = 0 ∧ win1_4.index t (0 : Fin 1) = 0
    ∧ win1_5.index t (0 : Fin 3) = t.val ∧ win1_5.index t (1 : Fin 3) = 0 ∧ win1_5.index t (2 : Fin 3) = 0 :=
  (by decide +kernel : ∀ t : Fin grid1.N, _)

/-- The first table's block at point `t` is batch `t` of the array. -/
theorem srcTable_block (c : Dev nD) (t : Fin cfg1.N) (b : Fin 32) (hb : b.val = t.val) (r k : Fin 128) :
    (iblk1 V c 0 t : Vec Ideal S1x128x128 .bf16) (ix3 (0 : Fin 1) r k)
      = (V c main_v6 : S32x128x128.Idx → Elt Ideal .bf16) (ix3 b r k) := by
  obtain ⟨e0, e1, e2, -⟩ := block_index t
  unfold iblk1
  rw [View.read_apply]
  show V c main_v6 _ = V c main_v6 _
  congr 1
  funext a
  apply Fin.ext
  match a with
  | ⟨0, _⟩ => show win1_0.index t (0 : Fin 3) * 1 + 1 * 0 = b.val; rw [e0, hb]; omega
  | ⟨1, _⟩ => show win1_0.index t (1 : Fin 3) * 128 + 1 * r.val = r.val; rw [e1]; omega
  | ⟨2, _⟩ => show win1_0.index t (2 : Fin 3) * 128 + 1 * k.val = k.val; rw [e2]; omega

/-- The second table's block at point `t` is batch `t` of the array. -/
theorem dstTable_block (c : Dev nD) (t : Fin cfg1.N) (b : Fin 32) (hb : b.val = t.val) (r k : Fin 128) :
    (iblk1 V c 1 t : Vec Ideal S1x128x128 .bf16) (ix3 (0 : Fin 1) r k)
      = (V c main_v7 : S32x128x128.Idx → Elt Ideal .bf16) (ix3 b r k) := by
  obtain ⟨-, -, -, e0, e1, e2, -⟩ := block_index t
  unfold iblk1
  rw [View.read_apply]
  show V c main_v7 _ = V c main_v7 _
  congr 1
  funext a
  apply Fin.ext
  match a with
  | ⟨0, _⟩ => show win1_1.index t (0 : Fin 3) * 1 + 1 * 0 = b.val; rw [e0, hb]; omega
  | ⟨1, _⟩ => show win1_1.index t (1 : Fin 3) * 128 + 1 * r.val = r.val; rw [e1]; omega
  | ⟨2, _⟩ => show win1_1.index t (2 : Fin 3) * 128 + 1 * k.val = k.val; rw [e2]; omega

/-- The source numbers' block is the whole array at every point. -/
theorem srcNumbers_block (c : Dev nD) (t : Fin cfg1.N) (e : Fin 8192) :
    (iblk1 V c 2 t : Vec Ideal S8192 .i32) (ix1 e) = (V c main_arg2 : S8192.Idx → Elt Ideal .i32) (ix1 e) := by
  obtain ⟨-, -, -, -, -, -, e0, -⟩ := block_index t
  unfold iblk1
  rw [View.read_apply]
  show V c main_arg2 _ = V c main_arg2 _
  congr 1
  funext a
  apply Fin.ext
  match a with
  | ⟨0, _⟩ => show win1_2.index t (0 : Fin 1) * 8192 + 1 * e.val = e.val; rw [e0]; omega

/-- The destination numbers' block is the whole array at every point. -/
theorem dstNumbers_block (c : Dev nD) (t : Fin cfg1.N) (e : Fin 8192) :
    (iblk1 V c 3 t : Vec Ideal S8192 .i32) (ix1 e) = (V c main_arg3 : S8192.Idx → Elt Ideal .i32) (ix1 e) := by
  obtain ⟨-, -, -, -, -, -, -, e0, -⟩ := block_index t
  unfold iblk1
  rw [View.read_apply]
  show V c main_arg3 _ = V c main_arg3 _
  congr 1
  funext a
  apply Fin.ext
  match a with
  | ⟨0, _⟩ => show win1_3.index t (0 : Fin 1) * 8192 + 1 * e.val = e.val; rw [e0]; omega

/-- The bias's block is the whole array at every point. -/
theorem bias_block (c : Dev nD) (t : Fin cfg1.N) (k : Fin 128) :
    (iblk1 V c 4 t : Vec Ideal S128 .f32) (ix1 k) = (V c main_arg9 : S128.Idx → Elt Ideal .f32) (ix1 k) := by
  obtain ⟨-, -, -, -, -, -, -, -, e0, -⟩ := block_index t
  unfold iblk1
  rw [View.read_apply]
  show V c main_arg9 _ = V c main_arg9 _
  congr 1
  funext a
  apply Fin.ext
  match a with
  | ⟨0, _⟩ => show win1_4.index t (0 : Fin 1) * 128 + 1 * k.val = k.val; rw [e0]; omega

/-- What the output array ends holding: the edge features of the two tables, the node numbers and
    the bias as the region finds them. -/
def edgeArray (c : Dev nD) : S32x8192x128.Idx → EReal :=
  fun i => Cert.Spec.edgeSel (V c main_v6) (V c main_v7) (V c main_arg2) (V c main_arg3) (V c main_arg9) (i 0) (i 1) (i 2)

/-- What point `t` writes back is block `t` of that array. -/
theorem point_writes_block (c : Dev nD) (t : Fin cfg1.N) :
    (dat1 V c).flushed 5 t = ((cfg1.win 5).blk t).view.read (Elt Ideal) (edgeArray V c) := by
  show (cfg1.win 5).cut (grid1.coords t) ((dat1 V c).after 5 t) = _
  rw [after1_5]
  refine funext fun (y : S1x8192x128.Idx) => ?_
  show outsAt1 V c t y = edgeArray V c (((cfg1.win 5).blk t).view.emb y)
  unfold outsAt1
  refine (staging_apply c (grid1.coords t) (ms1_0 t) (hs1_0 t) (ms1_1 t) (hs1_1 t) (ms1_2 t) (hs1_2 t) (ms1_3 t) (hs1_3 t)
    (ms1_4 t) (hs1_4 t) (ms1_5 t) (hs1_5 t) (iblk1 V c 0 t) (iblk1 V c 1 t) (iblk1 V c 2 t) (iblk1 V c 3 t) (iblk1 V c 4 t) y).trans ?_
  obtain ⟨u, e, k, rfl⟩ : ∃ (u : Fin 1) (e : Fin 8192) (k : Fin 128), y = ix3 u e k := ⟨y 0, y 1, y 2, eq_ix3 y⟩
  obtain rfl : u = 0 := Subsingleton.elim _ _
  have hN : cfg1.N = 32 := N_1
  have htlt : t.val < 32 := by have := t.isLt; omega
  obtain ⟨-, -, -, -, -, -, -, -, -, e0, e1, e2⟩ := block_index t
  have hemb : (((cfg1.win 5).blk t).view.emb (ix3 (0 : Fin 1) e k) : S32x8192x128.Idx) = ix3 (⟨t.val, htlt⟩ : Fin 32) e k := by
    funext a
    apply Fin.ext
    match a with
    | ⟨0, _⟩ => show win1_5.index t (0 : Fin 3) * 1 + 1 * 0 = t.val; rw [e0]; omega
    | ⟨1, _⟩ => show win1_5.index t (1 : Fin 3) * 8192 + 1 * e.val = e.val; rw [e1]; omega
    | ⟨2, _⟩ => show win1_5.index t (2 : Fin 3) * 128 + 1 * k.val = k.val; rw [e2]; omega
  rw [hemb]
  show edgeRow (iblk1 V c 0 t) (iblk1 V c 1 t) (iblk1 V c 2 t) (iblk1 V c 3 t) (iblk1 V c 4 t) e k
    = Cert.Spec.edgeSel (V c main_v6) (V c main_v7) (V c main_arg2) (V c main_arg3) (V c main_arg9) (⟨t.val, htlt⟩ : Fin 32) e k
  unfold edgeRow Cert.Spec.edgeSel
  rw [srcNumbers_block V c t e, dstNumbers_block V c t e, bias_block V c t k,
    srcTable_block V c t ⟨t.val, htlt⟩ rfl, dstTable_block V c t ⟨t.val, htlt⟩ rfl]

/-- An index of the array is in point `t`'s block iff each coordinate is in the block's range. -/
theorem mem_point_block (t : Fin cfg1.N) (i : S32x8192x128.Idx) :
    i ∈ ((cfg1.win 5).blk t).view.set ↔ ∀ a : Fin 3, win1_5.index t a * S1x8192x128.size a ≤ (i a).val
      ∧ (i a).val < win1_5.index t a * S1x8192x128.size a + S1x8192x128.size a := by
  show i ∈ ((View.whole main_v8).slice (win1_5.rect t)).set ↔ _
  rw [View.set_slice_whole, Rect.mem_set_unit]
  exact Iff.rfl

/-- The array after the region: the 32 points' blocks cover it. -/
theorem array_eq (c : Dev nD) : (dat1 V c).arrAt 5 cfg1.N = edgeArray V c :=
  (dat1 V c).arrAt_eq_of_cover 5 (edgeArray V c) (fun t _ => point_writes_block V c t) fun i => by
    have hN : cfg1.N = 32 := N_1
    have h0 : (i 0 : Nat) < 32 := (i 0).isLt
    have h1 : (i 1 : Nat) < 8192 := (i 1).isLt
    have h2 : (i 2 : Nat) < 128 := (i 2).isLt
    refine ⟨⟨(i 0).val, by omega⟩, flush1_5 _, ?_⟩
    obtain ⟨-, -, -, -, -, -, -, -, -, e0, e1, e2⟩ := block_index ⟨(i 0).val, by omega⟩
    have e0' : win1_5.index (⟨(i 0).val, by omega⟩ : Fin cfg1.N) (0 : Fin 3) = (i 0).val := e0
    rw [mem_point_block]
    intro a
    match a with
    | ⟨0, _⟩ =>
      show win1_5.index _ (0 : Fin 3) * 1 ≤ (i 0).val ∧ (i 0).val < win1_5.index _ (0 : Fin 3) * 1 + 1
      rw [e0']; omega
    | ⟨1, _⟩ =>
      show win1_5.index _ (1 : Fin 3) * 8192 ≤ (i 1).val ∧ (i 1).val < win1_5.index _ (1 : Fin 3) * 8192 + 8192
      rw [e1]; omega
    | ⟨2, _⟩ =>
      show win1_5.index _ (2 : Fin 3) * 128 ≤ (i 2).val ∧ (i 2).val < win1_5.index _ (2 : Fin 3) * 128 + 128
      rw [e2]; omega

/-- The output (`[32, 8192, 128]`) at batch `b`, edge `e`, column `k`. -/
theorem edge_apply (c : Dev nD) (b : Fin 32) (e : Fin 8192) (k : Fin 128) :
    ((dat1 V c).arrAt 5 cfg1.N : S32x8192x128.Idx → EReal) (ix3 b e k)
      = Cert.Spec.edgeSel (V c main_v6) (V c main_v7) (V c main_arg2) (V c main_arg3) (V c main_arg9) b e k := by
  rw [array_eq]
  rfl

end Cert.KernelIdeal.Region1

end
-- ==== Proof.KValue.lean ====
/-
  The idealized kernel's two results as functions of its ARGUMENT arrays.
  The run ends with every buffer at the last segment boundary's contents. Result 1 (`main_v8`) is the
  second region's output array; result 0 (`main_v5`) is the first region's first output reshaped
  `[4096, 128] → [32, 128, 128]`. The second region finds, as its two tables, the first region's other two
  outputs reshaped the same way, and the first region finds the image features and locations reshaped
  `[32, 128, ·] → [4096, ·]` and the two halves of the relation weights sliced out of `[256, 128]`.
  A row-major reshape that merges the two leading axes sends `(b, n)` to the flat row `128·b + n`, so
  reading everything back through the reshapes and slices turns the per-region functions
  (`Spec.nodeFlat`, `Spec.projFlat`, `Spec.edgeSel`) into `Spec.node` and `Spec.edge` of the arguments.
-/
import proofs.«428156_j38482906972413_3_alg».proof.Proof.Gen.KernelIdeal.Frame
import proofs.«428156_j38482906972413_3_alg».proof.Proof.Spec
import proofs.«428156_j38482906972413_3_alg».proof.Proof.Region0
import proofs.«428156_j38482906972413_3_alg».proof.Proof.Region1
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.ValueIdx Idealize.ShloMosaic.TcCoe Idealize.SL.Sem
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-- The flat row of node `n` of batch `b`: the reshape `[32, 128, ·] → [4096, ·]` is row-major. -/
def flatRow (b : Fin 32) (n : Fin 128) : Fin 4096 := ⟨128 * b.val + n.val, by omega⟩

/-! ## The arrays the first region finds: reshapes and slices of the arguments -/

theorem V1_v2_eq (c : Dev nD) : (V1 m ρ c main_v2 : S4096x2048.Idx → EReal)
    = shapeCast S4096x2048 (m ((c : Thread nD τ).loc main_arg0) : S32x128x2048.Idx → EReal) shapeCasts_S32x128x2048_S4096x2048 := by
  show StableHlo.after hostOps0 (W0 m ρ c) (Proc.devRef .tc main_v2) = _
  after_results
  rfl

theorem V1_v3_eq (c : Dev nD) : (V1 m ρ c main_v3 : S4096x5.Idx → EReal)
    = shapeCast S4096x5 (m ((c : Thread nD τ).loc main_arg1) : S32x128x5.Idx → EReal) shapeCasts_S32x128x5_S4096x5 := by
  show StableHlo.after hostOps0 (W0 m ρ c) (Proc.devRef .tc main_v3) = _
  after_results
  rfl

theorem V1_v0_eq (c : Dev nD) : (V1 m ρ c main_v0 : S128x128.Idx → EReal)
    = extractStridedSlice S128x128 ![0, 0] (m ((c : Thread nD τ).loc main_arg8) : S256x128.Idx → EReal) slices_S256x128_S128x128_0_0 := by
  show StableHlo.after hostOps0 (W0 m ρ c) (Proc.devRef .tc main_v0) = _
  after_results

theorem V1_v1_eq (c : Dev nD) : (V1 m ρ c main_v1 : S128x128.Idx → EReal)
    = extractStridedSlice S128x128 ![128, 0] (m ((c : Thread nD τ).loc main_arg8) : S256x128.Idx → EReal) slices_S256x128_S128x128_128_0 := by
  show StableHlo.after hostOps0 (W0 m ρ c) (Proc.devRef .tc main_v1) = _
  after_results

theorem V1_arg4_eq (c : Dev nD) : (V1 m ρ c main_arg4 : S2048x128.Idx → EReal) = m ((c : Thread nD τ).loc main_arg4) := by
  show StableHlo.after hostOps0 (W0 m ρ c) (Proc.devRef .tc main_arg4) = _
  after_results
theorem V1_arg5_eq (c : Dev nD) : (V1 m ρ c main_arg5 : S128.Idx → EReal) = m ((c : Thread nD τ).loc main_arg5) := by
  show StableHlo.after hostOps0 (W0 m ρ c) (Proc.devRef .tc main_arg5) = _
  after_results
theorem V1_arg6_eq (c : Dev nD) : (V1 m ρ c main_arg6 : S5x128.Idx → EReal) = m ((c : Thread nD τ).loc main_arg6) := by
  show StableHlo.after hostOps0 (W0 m ρ c) (Proc.devRef .tc main_arg6) = _
  after_results
theorem V1_arg7_eq (c : Dev nD) : (V1 m ρ c main_arg7 : S128.Idx → EReal) = m ((c : Thread nD τ).loc main_arg7) := by
  show StableHlo.after hostOps0 (W0 m ρ c) (Proc.devRef .tc main_arg7) = _
  after_results

/-- Flat row `128·b + n` of the reshaped image features is node `n` of batch `b`. -/
theorem V1_v2_apply (c : Dev nD) (b : Fin 32) (n : Fin 128) (q : Fin 2048) :
    (V1 m ρ c main_v2 : S4096x2048.Idx → EReal) (ix2 (flatRow b n) q)
      = (m ((c : Thread nD τ).loc main_arg0) : S32x128x2048.Idx → EReal) (ix3 b n q) := by
  rw [V1_v2_eq m ρ c]
  refine shapeCast_apply _ _ _ _ ?_
  refine (Shape.rowMajor_val_three (d := ![32, 128, 2048]) (ix3 b n q)).trans
    (Eq.trans ?_ (Shape.rowMajor_val_two (d := ![4096, 2048]) (ix2 (flatRow b n) q)).symm)
  show (b.val * 128 + n.val) * 2048 + q.val = (128 * b.val + n.val) * 2048 + q.val
  omega

theorem V1_v3_apply (c : Dev nD) (b : Fin 32) (n : Fin 128) (q : Fin 5) :
    (V1 m ρ c main_v3 : S4096x5.Idx → EReal) (ix2 (flatRow b n) q)
      = (m ((c : Thread nD τ).loc main_arg1) : S32x128x5.Idx → EReal) (ix3 b n q) := by
  rw [V1_v3_eq m ρ c]
  refine shapeCast_apply _ _ _ _ ?_
  refine (Shape.rowMajor_val_three (d := ![32, 128, 5]) (ix3 b n q)).trans
    (Eq.trans ?_ (Shape.rowMajor_val_two (d := ![4096, 5]) (ix2 (flatRow b n) q)).symm)
  show (b.val * 128 + n.val) * 5 + q.val = (128 * b.val + n.val) * 5 + q.val
  omega

/-- The upper half of the relation weights. -/
theorem V1_v0_apply (c : Dev nD) (h k : Fin 128) :
    (V1 m ρ c main_v0 : S128x128.Idx → EReal) (ix2 h k)
      = (m ((c : Thread nD τ).loc main_arg8) : S256x128.Idx → EReal) (ix2 (⟨h.val, by omega⟩ : Fin 256) k) := by
  rw [V1_v0_eq m ρ c]
  refine extractStridedSlice_apply _ _ _ _ _ fun a => ?_
  match a with
  | ⟨0, _⟩ => show h.val = 0 + h.val; omega
  | ⟨1, _⟩ => show k.val = 0 + k.val; omega

/-- The lower half of the relation weights. -/
theorem V1_v1_apply (c : Dev nD) (h k : Fin 128) :
    (V1 m ρ c main_v1 : S128x128.Idx → EReal) (ix2 h k)
      = (m ((c : Thread nD τ).loc main_arg8) : S256x128.Idx → EReal) (ix2 (⟨128 + h.val, by omega⟩ : Fin 256) k) := by
  rw [V1_v1_eq m ρ c]
  refine extractStridedSlice_apply _ _ _ _ _ fun a => ?_
  match a with
  | ⟨0, _⟩ => show 128 + h.val = 128 + h.val; rfl
  | ⟨1, _⟩ => show k.val = 0 + k.val; omega

/-- The image projection on a flat row is the image projection of the node. -/
theorem imgFlat_eq (c : Dev nD) (b : Fin 32) (n h : Fin 128) :
    Cert.Spec.imgFlat (V1 m ρ c main_v2) (V1 m ρ c main_arg4) (V1 m ρ c main_arg5) (flatRow b n) h
      = Cert.Spec.img (m ((c : Thread nD τ).loc main_arg0)) (m ((c : Thread nD τ).loc main_arg4)) (m ((c : Thread nD τ).loc main_arg5)) b n h := by
  unfold Cert.Spec.imgFlat Cert.Spec.img
  rw [V1_arg4_eq m ρ c, V1_arg5_eq m ρ c]
  refine congrArg (· + _) (Finset.sum_congr rfl fun q _ => ?_)
  rw [V1_v2_apply m ρ c b n q]

theorem locFlat_eq (c : Dev nD) (b : Fin 32) (n h : Fin 128) :
    Cert.Spec.locFlat (V1 m ρ c main_v3) (V1 m ρ c main_arg6) (V1 m ρ c main_arg7) (flatRow b n) h
      = Cert.Spec.loc (m ((c : Thread nD τ).loc main_arg1)) (m ((c : Thread nD τ).loc main_arg6)) (m ((c : Thread nD τ).loc main_arg7)) b n h := by
  unfold Cert.Spec.locFlat Cert.Spec.loc
  rw [V1_arg6_eq m ρ c, V1_arg7_eq m ρ c]
  refine congrArg (· + _) (Finset.sum_congr rfl fun q _ => ?_)
  rw [V1_v3_apply m ρ c b n q]

/-! ## The arrays the second region finds -/

theorem V3_v5_eq (c : Dev nD) : (V3 m ρ c main_v5 : S32x128x128.Idx → EReal)
    = shapeCast S32x128x128 ((dat0 (V1 m ρ) c).arrAt 8 cfg0.N : S4096x128.Idx → EReal) shapeCasts_S4096x128_S32x128x128 := by
  show StableHlo.after hostOps1 (W2 m ρ c) (Proc.devRef .tc main_v5) = _
  after_results
  rw [W2_arr m ρ c 8]
  rfl

theorem V3_v6_eq (c : Dev nD) : (V3 m ρ c main_v6 : S32x128x128.Idx → EReal)
    = shapeCast S32x128x128 ((dat0 (V1 m ρ) c).arrAt 9 cfg0.N : S4096x128.Idx → EReal) shapeCasts_S4096x128_S32x128x128 := by
  show StableHlo.after hostOps1 (W2 m ρ c) (Proc.devRef .tc main_v6) = _
  after_results
  rw [W2_arr m ρ c 9]
  rfl

theorem V3_v7_eq (c : Dev nD) : (V3 m ρ c main_v7 : S32x128x128.Idx → EReal)
    = shapeCast S32x128x128 ((dat0 (V1 m ρ) c).arrAt 10 cfg0.N : S4096x128.Idx → EReal) shapeCasts_S4096x128_S32x128x128 := by
  show StableHlo.after hostOps1 (W2 m ρ c) (Proc.devRef .tc main_v7) = _
  after_results
  rw [W2_arr m ρ c 10]
  rfl

theorem V3_arg2_eq (c : Dev nD) : (V3 m ρ c main_arg2 : S8192.Idx → BitVec 32) = m ((c : Thread nD τ).loc main_arg2) :=
  ((W4_arr m ρ c 2).trans (((dat1 (V3 m ρ) c).arrAt_in 2 rfl _).trans (A_eq1 (V3 m ρ) c 2))).symm.trans (W4_main_arg2 m ρ c)
theorem V3_arg3_eq (c : Dev nD) : (V3 m ρ c main_arg3 : S8192.Idx → BitVec 32) = m ((c : Thread nD τ).loc main_arg3) :=
  ((W4_arr m ρ c 3).trans (((dat1 (V3 m ρ) c).arrAt_in 3 rfl _).trans (A_eq1 (V3 m ρ) c 3))).symm.trans (W4_main_arg3 m ρ c)
theorem V3_arg9_eq (c : Dev nD) : (V3 m ρ c main_arg9 : S128.Idx → EReal) = m ((c : Thread nD τ).loc main_arg9) :=
  ((W4_arr m ρ c 4).trans (((dat1 (V3 m ρ) c).arrAt_in 4 rfl _).trans (A_eq1 (V3 m ρ) c 4))).symm.trans (W4_main_arg9 m ρ c)

/-- A `[4096, 128]` array reshaped to `[32, 128, 128]`, read at `(b, n, k)`, is the array at flat row `128·b + n`. -/
theorem reshape_apply (x : S4096x128.Idx → EReal) (b : Fin 32) (n k : Fin 128) :
    shapeCast S32x128x128 x shapeCasts_S4096x128_S32x128x128 (ix3 b n k) = x (ix2 (flatRow b n) k) := by
  refine shapeCast_apply _ _ _ _ ?_
  refine (Shape.rowMajor_val_two (d := ![4096, 128]) (ix2 (flatRow b n) k)).trans
    (Eq.trans ?_ (Shape.rowMajor_val_three (d := ![32, 128, 128]) (ix3 b n k)).symm)
  show (128 * b.val + n.val) * 128 + k.val = (b.val * 128 + n.val) * 128 + k.val
  omega

/-- A row of the first table: the node's image projection through the upper half of the relation weights. -/
theorem V3_v6_apply (c : Dev nD) (b : Fin 32) (n k : Fin 128) :
    @Eq EReal ((V3 m ρ c main_v6 : S32x128x128.Idx → EReal) (ix3 b n k))
      (∑ h : Fin 128, Cert.Spec.img (m ((c : Thread nD τ).loc main_arg0)) (m ((c : Thread nD τ).loc main_arg4)) (m ((c : Thread nD τ).loc main_arg5)) b n h
          * (m ((c : Thread nD τ).loc main_arg8) : S256x128.Idx → EReal) (ix2 (⟨h.val, by omega⟩ : Fin 256) k)) := by
  rw [V3_v6_eq m ρ c, reshape_apply, Cert.KernelIdeal.Region0.projSrc_apply (V1 m ρ) c (flatRow b n) k]
  unfold Cert.Spec.projFlat
  refine Finset.sum_congr rfl fun h _ => ?_
  rw [imgFlat_eq m ρ c b n h, V1_v0_apply m ρ c h k]

/-- A row of the second table: the same through the lower half. -/
theorem V3_v7_apply (c : Dev nD) (b : Fin 32) (n k : Fin 128) :
    @Eq EReal ((V3 m ρ c main_v7 : S32x128x128.Idx → EReal) (ix3 b n k))
      (∑ h : Fin 128, Cert.Spec.img (m ((c : Thread nD τ).loc main_arg0)) (m ((c : Thread nD τ).loc main_arg4)) (m ((c : Thread nD τ).loc main_arg5)) b n h
          * (m ((c : Thread nD τ).loc main_arg8) : S256x128.Idx → EReal) (ix2 (⟨128 + h.val, by omega⟩ : Fin 256) k)) := by
  rw [V3_v7_eq m ρ c, reshape_apply, Cert.KernelIdeal.Region0.projDst_apply (V1 m ρ) c (flatRow b n) k]
  unfold Cert.Spec.projFlat
  refine Finset.sum_congr rfl fun h _ => ?_
  rw [imgFlat_eq m ρ c b n h, V1_v1_apply m ρ c h k]

/-! ## The two results -/

/-- RESULT 0 at `(b, n, h)`: the node features. -/
theorem result_node (c : Dev nD) (b : Fin 32) (n h : Fin 128) :
    (W4 m ρ c (Proc.devRef .tc main_v5) : S32x128x128.Idx → EReal) (ix3 b n h)
      = Cert.Spec.node (m ((c : Thread nD τ).loc main_arg0)) (m ((c : Thread nD τ).loc main_arg1)) (m ((c : Thread nD τ).loc main_arg4))
          (m ((c : Thread nD τ).loc main_arg5)) (m ((c : Thread nD τ).loc main_arg6)) (m ((c : Thread nD τ).loc main_arg7)) b n h := by
  rw [W4_of_ne m ρ c main_v5 (by decide)]
  show (V3 m ρ c main_v5 : S32x128x128.Idx → EReal) (ix3 b n h) = _
  rw [V3_v5_eq m ρ c, reshape_apply, Cert.KernelIdeal.Region0.node_apply (V1 m ρ) c (flatRow b n) h]
  unfold Cert.Spec.nodeFlat Cert.Spec.node
  rw [imgFlat_eq m ρ c b n h, locFlat_eq m ρ c b n h]

/-- RESULT 1 at `(b, e, k)`: the edge features. -/
theorem result_edge (c : Dev nD) (b : Fin 32) (e : Fin 8192) (k : Fin 128) :
    (W4 m ρ c (Proc.devRef .tc main_v8) : S32x8192x128.Idx → EReal) (ix3 b e k)
      = Cert.Spec.edge (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg8))
          (m ((c : Thread nD τ).loc main_arg9)) b e k := by
  rw [show W4 m ρ c (Proc.devRef .tc main_v8) = (dat1 (V3 m ρ) c).arrAt 5 cfg1.N from W4_arr m ρ c 5]
  rw [Cert.KernelIdeal.Region1.edge_apply (V3 m ρ) c b e k]
  unfold Cert.Spec.edgeSel Cert.Spec.edge
  rw [V3_v6_apply m ρ c, V3_v7_apply m ρ c, V3_arg2_eq m ρ c, V3_arg3_eq m ρ c, V3_arg9_eq m ρ c]

end Cert.KernelIdeal.KValue

end
-- ==== Proof.RefRun.lean ====
/-
  The reference program's run: @main is a straight line of host operations once its calls are
  unfolded, so every weakly fair execution ends with each buffer at the fold of those operations over
  the launch memory; read at the two result buffers the fold is `Term.nodeT` and `Term.edgeT` of the
  argument arrays, and no operation writes an argument.
-/
import proofs.«428156_j38482906972413_3_alg».proof.Proof.Gen.ReferenceIdeal
import proofs.«428156_j38482906972413_3_alg».proof.Proof.RefTerm
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.ReferenceIdeal.Hand

open Cert.ReferenceIdeal Cert.ReferenceIdeal.Gen

variable {F : FTy → Type} [FloatOps F]

/-- @main's sixty-three operations in program order, each call of `take` unfolded at its site over that
    call's buffers: the two projections and their sum (nine), then per index list the wrap of negative
    indices (six and the select of `where`), the index column, the range test and its and-reduction, the
    gather of rows of `img`, the mask's broadcast and the fill (twenty-three in all), then the two halves
    of the relation weight, the two contractions, their sum and the bias (eight). -/
abbrev ops : List (HloOp τ sig (Elt F)) :=
  [ binary main_arg0 main_arg4 main_v0 (fun l r => Host.dotGeneral dot_S32x128x2048_S2048x128_S32x128x128_2_0_01_1_n_n none l r),
    unary main_arg5 main_v1 (broadcastInDim S1x1x128 ![2] bcast_S128_S1x1x128_2),
    unary main_v1 main_v2 (broadcastInDim S32x128x128 ![0, 1, 2] bcast_S1x1x128_S32x128x128_0_1_2),
    binary main_v0 main_v2 main_v3 addf,
    binary main_arg1 main_arg6 main_v4 (fun l r => Host.dotGeneral dot_S32x128x5_S5x128_S32x128x128_2_0_01_1_n_n none l r),
    unary main_arg7 main_v5 (broadcastInDim S1x1x128 ![2] bcast_S128_S1x1x128_2),
    unary main_v5 main_v6 (broadcastInDim S32x128x128 ![0, 1, 2] bcast_S1x1x128_S32x128x128_0_1_2),
    binary main_v4 main_v6 main_v7 addf,
    binary main_v3 main_v7 main_v8 addf,
    TRef.nullary main_call0.c (constantI S_ 32 0#32),
    TRef.unary main_call0.c main_call0.v0 (broadcastInDim S8192 ![] bcast_S_S8192),
    TRef.binary (.of main_arg2) main_call0.v0 main_call0.v1 (cmpi .slt),
    TRef.nullary main_call0.c_0 (constantI S_ 32 128#32),
    TRef.unary main_call0.c_0 main_call0.v2 (broadcastInDim S8192 ![] bcast_S_S8192),
    TRef.binary (.of main_arg2) main_call0.v2 main_call0.v3 addi,
    TRef.ternary main_call0.v1 main_call0.v3 (.of main_arg2) main_call0.call0.v0 select,
    TRef.unary main_call0.call0.v0 main_call0.v5 (broadcastInDim S8192x1 ![0] bcast_S8192_S8192x1_0),
    TRef.nullary main_call0.c_1 (constantI S1 32 127#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_v3) main_call0.v5 main_call0.v13 (fun x i => Host.gather gather_S32x128x128_S8192x1_S32x8192x128_02_1_n_n_1_1_321128 x i),
    TRef.unary main_call0.v12 main_call0.v14 (broadcastInDim S32x8192x128 ![1] bcast_S8192_S32x8192x128_1),
    TRef.nullary main_call0.cst (constant S_ .f32 0x7FC00000#32),
    TRef.unary main_call0.cst main_call0.v15 (broadcastInDim S32x8192x128 ![] bcast_S_S32x8192x128),
    TRef.ternary main_call0.v14 main_call0.v13 main_call0.v15 main_call0.v16 select,
    TRef.nullary main_call1.c (constantI S_ 32 0#32),
    TRef.unary main_call1.c main_call1.v0 (broadcastInDim S8192 ![] bcast_S_S8192),
    TRef.binary (.of main_arg3) main_call1.v0 main_call1.v1 (cmpi .slt),
    TRef.nullary main_call1.c_0 (constantI S_ 32 128#32),
    TRef.unary main_call1.c_0 main_call1.v2 (broadcastInDim S8192 ![] bcast_S_S8192),
    TRef.binary (.of main_arg3) main_call1.v2 main_call1.v3 addi,
    TRef.ternary main_call1.v1 main_call1.v3 (.of main_arg3) main_call1.call0.v0 select,
    TRef.unary main_call1.call0.v0 main_call1.v5 (broadcastInDim S8192x1 ![0] bcast_S8192_S8192x1_0),
    TRef.nullary main_call1.c_1 (constantI S1 32 127#32),
    TRef.nullary main_call1.c_2 (constantI S_ 32 0#32),
    TRef.unary main_call1.c_2 main_call1.v6 (broadcastInDim S8192x1 ![] bcast_S_S8192x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S8192x1 ![0, 1] bcast_S1x1_S8192x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x1_S8192_d1 h_S_),
    TRef.binary (.of main_v3) main_call1.v5 main_call1.v13 (fun x i => Host.gather gather_S32x128x128_S8192x1_S32x8192x128_02_1_n_n_1_1_321128 x i),
    TRef.unary main_call1.v12 main_call1.v14 (broadcastInDim S32x8192x128 ![1] bcast_S8192_S32x8192x128_1),
    TRef.nullary main_call1.cst (constant S_ .f32 0x7FC00000#32),
    TRef.unary main_call1.cst main_call1.v15 (broadcastInDim S32x8192x128 ![] bcast_S_S32x8192x128),
    TRef.ternary main_call1.v14 main_call1.v13 main_call1.v15 main_call1.v16 select,
    unary main_arg8 main_v11 (extractStridedSlice S128x128 ![0, 0] · slices_S256x128_S128x128_0_0),
    binary main_v9 main_v11 main_v12 (fun l r => Host.dotGeneral dot_S32x8192x128_S128x128_S32x8192x128_2_0_01_1_n_n none l r),
    unary main_arg8 main_v13 (extractStridedSlice S128x128 ![128, 0] · slices_S256x128_S128x128_128_0),
    binary main_v10 main_v13 main_v14 (fun l r => Host.dotGeneral dot_S32x8192x128_S128x128_S32x8192x128_2_0_01_1_n_n none l r),
    binary main_v12 main_v14 main_v15 addf,
    unary main_arg9 main_v16 (broadcastInDim S1x1x128 ![2] bcast_S128_S1x1x128_2),
    unary main_v16 main_v17 (broadcastInDim S32x8192x128 ![0, 1, 2] bcast_S1x1x128_S32x8192x128_0_1_2),
    binary main_v15 main_v17 main_v18 addf ]

-- sixty-three binds re-associated: the rewrite under the chain recurses once per statement
set_option maxRecDepth 2048 in
/-- @main is that straight line: the two functions' definitions unfold at their calls, the calls' records at
    their fields, and sequencing re-associates. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., binary_bufs_sub .., unary_bufs_sub .., binary_bufs_sub .., binary_bufs_sub ..,
    unary_bufs_sub .., unary_bufs_sub .., binary_bufs_sub ..⟩

/-- From any memory with zero counters every weakly fair execution of @main terminates, and every final
    state has each buffer at the operations' fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
/-- The fold at the first result is `Term.nodeT` of the arguments' contents, by computation: each
    operation's result rewritten at the buffer it writes and passed over at every other, down to the
    arguments; the typed references' casts are the identity at these literal references. The gather and
    the reduction stay folded meanwhile (the equation never looks inside them). -/
theorem node_eq (V : Valuation τ sig (Elt F)) :
    after ops V (main_v8 : DevRef τ sig)
      = Term.nodeT (V (main_arg0 : DevRef τ sig)) (V (main_arg1 : DevRef τ sig)) (V (main_arg4 : DevRef τ sig))
          (V (main_arg5 : DevRef τ sig)) (V (main_arg6 : DevRef τ sig)) (V (main_arg7 : DevRef τ sig)) := by
  after_results_simp
  rfl

attribute [local irreducible] Host.reduce Host.gather in
set_option maxRecDepth 8192 in
set_option maxHeartbeats 1000000 in
/-- The fold at the second result is `Term.edgeT` of the arguments' contents, likewise: both calls of
    `take` read `img` (the program's %3) and one index list each. -/
theorem edge_eq (V : Valuation τ sig (Elt F)) :
    after ops V (main_v18 : DevRef τ sig)
      = Term.edgeT (V (main_arg0 : DevRef τ sig)) (V (main_arg2 : DevRef τ sig)) (V (main_arg3 : DevRef τ sig))
          (V (main_arg4 : DevRef τ sig)) (V (main_arg5 : DevRef τ sig)) (V (main_arg8 : DevRef τ sig))
          (V (main_arg9 : DevRef τ sig)) := by
  after_results_simp
  rfl

/-! No operation writes an argument: the fold leaves each at what it was. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-- Every weakly fair execution of the reference terminates with the two results at `Term.nodeT` and
    `Term.edgeT` of the launch memory's argument arrays, and the arguments as launched. -/
theorem run_values (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v8)
          = Term.nodeT (m ((c.tc : Thread nD τ).loc main_arg0)) (m ((c.tc : Thread nD τ).loc main_arg1))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_v18)
          = Term.edgeT (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c main_v8).trans (node_eq _), (h c main_v18).trans (edge_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_all m ρ)

end Cert.ReferenceIdeal.Hand

end
-- ==== Proof.LibWrapTake.lean ====
/-
  Two facts about words, for reading an index range out of a printed predicate and into a printed range mask.

  numpy's wrap of a negative index: for a table of N rows an index x with −N ≤ x < N is sent to x + N when x < 0 and left
  alone otherwise, and the result lies in [0, N − 1]. On 32-bit words read as signed integers, for N up to 2³⁰, the sum
  does not wrap around, so the word computed by "select (x < 0) (x + N) x" has that signed value.
  An and-reduction of one-bit words that are all 1, from an initial value 1, is 1 at every result index.
-/
import Idealize.ShloMosaic.Lib.Affine
import Idealize.ShloMosaic.Lib.ValueIdx
import Idealize.ShloMosaic.Lib.ReduceAll
import Idealize.ShloMosaic.Lib.StableHlo.Predicate

namespace Cert.LibWrapTake

open Idealize.ShloMosaic

/-- The wrapped index lies in the table: from −N ≤ x < N (signed), the word "x + N if x < 0, else x" is in [0, N − 1]. -/
theorem wrap_range (N : Nat) (hN : N ≤ 2 ^ 30) (x : BitVec 32) (hlo : -(N : Int) ≤ x.toInt) (hhi : x.toInt < N) :
    0 ≤ (Scalar.select (IntOp.cmpi .slt x 0#32) (IntOp.addi x (BitVec.ofNat 32 N)) x).toInt
    ∧ (Scalar.select (IntOp.cmpi .slt x 0#32) (IntOp.addi x (BitVec.ofNat 32 N)) x).toInt ≤ (N : Int) - 1 := by
  have h0 : (0#32 : BitVec 32).toInt = 0 := by decide
  have hNi : (BitVec.ofNat 32 N).toInt = N := StableHlo.Predicate.toInt_ofNat_small N (by omega)
  have hN' : (N : Int) ≤ 2 ^ 30 := by exact_mod_cast hN
  by_cases hx : x.toInt < 0
  · have hc : IntOp.cmpi .slt x 0#32 = 1#1 := IntOp.cmpi_slt.2 (by rw [h0]; exact hx)
    rw [hc, ValueIdx.select_one]
    show 0 ≤ (x + BitVec.ofNat 32 N).toInt ∧ (x + BitVec.ofNat 32 N).toInt ≤ (N : Int) - 1
    rw [BitVec.toInt_add, hNi, Int.bmod_eq_of_le (by omega) (by omega)]
    omega
  · have hc : IntOp.cmpi .slt x 0#32 = 0#1 :=
      ValueIdx.eq_zero_of_ne_one (fun h => hx (by have := IntOp.cmpi_slt.1 h; rwa [h0] at this))
    rw [hc, ValueIdx.select_zero]
    omega

/-- A left fold by `and` over one-bit words that starts at 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) (fun n hn => hl n (List.mem_cons_of_mem _ hn))

/-- An and-reduction of an array of 1s from the initial value 1 is 1 everywhere. -/
theorem reduce_andi_one_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

end Cert.LibWrapTake
-- ==== Proof.RefValue.lean ====
/-
  The reference's two results read at an index, at the ideal instance. A contraction over one axis is
  the sum over that axis; the bias rows broadcast along the leading axes; and for node numbers in
  `0 … 127` numpy's `take` along axis 1 neither wraps nor fills, so it reads the named row.
-/
import proofs.«428156_j38482906972413_3_alg».proof.Proof.RefTerm
import proofs.«428156_j38482906972413_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import proofs.«428156_j38482906972413_3_alg».proof.Proof.LibWrapTake

set_option maxRecDepth 16384
noncomputable section

open scoped BigOperators
open Idealize.ShloMosaic Idealize.ShloMosaic.ValueIdx

namespace Cert.ReferenceIdeal.Read

open Cert.ReferenceIdeal Cert.ReferenceIdeal.Gen

/-! ## The operations of the program read at an index, over variable extents -/

section Operations
variable {α : Type}

/-- A contraction of the last axis of an [A, B, K] array against the first axis of a [K, N] array, read at
    (a, b, c): the sum over the contracted coordinate of the products of the entries. At the ideal values. -/
theorem dot_rows_apply {A B K N : Nat} {φ₁ φ₂ : FTy}
    (w : DotDims.WF ⟨3, ![A, B, K]⟩ ⟨2, ![K, N]⟩ ⟨3, ![A, B, N]⟩ [2] [0] [0, 1] [1] [] [])
    (prec : Option ContractPrecision) (X : FVec Ideal ⟨3, ![A, B, K]⟩ φ₁) (W : FVec Ideal ⟨2, ![K, N]⟩ φ₂)
    (a : Fin A) (b : Fin B) (c : Fin N) :
    Host.dotGeneral (⟨[2], [0], [0, 1], [1], [], [], w⟩ : DotDims _ _ _) prec X W (ix3 a b c)
      = ∑ q : Fin K, X (ix3 a b q) * W (ix2 q c) := by
  show FloatOps.dotGeneral _ prec _ X W (ix3 a b c) = _
  rw [Ideal.dotGeneral_apply,
    ← Equiv.sum_comp (contrEquiv1 (⟨[2], [0], [0, 1], [1], [], [], w⟩ : DotDims _ _ _) K rfl rfl).symm]
  refine Finset.sum_congr rfl fun q _ => ?_
  have cq := contrEquiv1_symm_val
    (⟨[2], [0], [0, 1], [1], [], [], w⟩ : DotDims ⟨3, ![A, B, K]⟩ ⟨2, ![K, N]⟩ ⟨3, ![A, B, N]⟩) K rfl rfl q
  have el : (⟨[2], [0], [0, 1], [1], [], [], w⟩ : DotDims ⟨3, ![A, B, K]⟩ ⟨2, ![K, N]⟩ ⟨3, ![A, B, N]⟩).lhsIdx (ix3 a b c)
      ((contrEquiv1 _ K rfl rfl).symm q) = ix3 a b q := by
    funext ax; apply Fin.ext
    match ax with
    | ⟨0, _⟩ => simp [DotDims.lhsIdx]; rfl
    | ⟨1, _⟩ => simp [DotDims.lhsIdx]; rfl
    | ⟨2, _⟩ => simp [DotDims.lhsIdx]; exact cq
  have er : (⟨[2], [0], [0, 1], [1], [], [], w⟩ : DotDims ⟨3, ![A, B, K]⟩ ⟨2, ![K, N]⟩ ⟨3, ![A, B, N]⟩).rhsIdx (ix3 a b c)
      ((contrEquiv1 _ K rfl rfl).symm q) = ix2 q c := by
    funext ax; apply Fin.ext
    match ax with
    | ⟨0, _⟩ => simp [DotDims.rhsIdx]; exact cq
    | ⟨1, _⟩ => simp [DotDims.rhsIdx]; rfl
  rw [el, er]

/-- A vector of N entries laid along the last axis of a [1, 1, N] array and then broadcast along the two leading
    axes of an [A, B, N] array reads, at (a, b, c), the vector at c. -/
theorem bias_apply {A B N : Nat} (v : (⟨1, ![N]⟩ : Shape).Idx → α)
    (h1 : (⟨1, ![N]⟩ : Shape).BroadcastsInDim ⟨3, ![1, 1, N]⟩ ![2])
    (h2 : (⟨3, ![1, 1, N]⟩ : Shape).BroadcastsInDim ⟨3, ![A, B, N]⟩ ![0, 1, 2]) (a : Fin A) (b : Fin B) (c : Fin N) :
    broadcastInDim ⟨3, ![A, B, N]⟩ ![0, 1, 2] h2 (broadcastInDim ⟨3, ![1, 1, N]⟩ ![2] h1 v) (ix3 a b c) = v (ix1 c) := by
  have hc := c.isLt
  refine (broadcastInDim_apply ![0, 1, 2] h2 _ (ix3 a b c) (ix3 (0 : Fin 1) (0 : Fin 1) c) ?_).trans ?_
  · intro x
    match x with
    | ⟨0, _⟩ => rfl
    | ⟨1, _⟩ => rfl
    | ⟨2, _⟩ =>
      show c.val = if N = 1 then 0 else c.val
      split
      · omega
      · rfl
  · refine broadcastInDim_apply ![2] h1 v (ix3 (0 : Fin 1) (0 : Fin 1) c) (ix1 c) ?_
    intro x
    match x with
    | ⟨0, _⟩ =>
      show c.val = if N = 1 then 0 else c.val
      split
      · omega
      · rfl

/-- Rows o, o + 1, … of a [K, N] array cut out as an [M, N] array read, at (r, c), the array at (o + r, c) (the row named by its number `r'`). -/
theorem band_apply {K M N : Nat} (o : Nat) (x : (⟨2, ![K, N]⟩ : Shape).Idx → α)
    (h : (⟨2, ![K, N]⟩ : Shape).Slices ![o, 0] ⟨2, ![M, N]⟩) (r : Fin M) (c : Fin N) (r' : Fin K)
    (hr : r'.val = o + r.val) :
    extractStridedSlice ⟨2, ![M, N]⟩ ![o, 0] x h (ix2 r c) = x (ix2 r' c) := by
  refine extractStridedSlice_apply ![o, 0] x h (ix2 r c) (ix2 r' c) ?_
  intro ax
  match ax with
  | ⟨0, _⟩ => exact hr
  | ⟨1, _⟩ => show c.val = 0 + c.val; omega

end Operations

/-! ## The two projections and RESULT 0 -/

/-- The image projection at (b, n, h). -/
theorem imgT_apply (a0 : FVec Ideal S32x128x2048 .f32) (a4 : FVec Ideal S2048x128 .f32) (a5 : FVec Ideal S128 .f32)
    (b : Fin 32) (n : Fin 128) (h : Fin 128) :
    (Term.imgT (F := Ideal) a0 a4 a5 : S32x128x128.Idx → EReal) (ix3 b n h) = Cert.Spec.img a0 a4 a5 b n h := by
  unfold Term.imgT Cert.Spec.img
  rw [addf_apply]
  refine congrArg₂ (· + ·) ?_ ?_
  · exact dot_rows_apply _ none a0 a4 b n h
  · exact bias_apply a5 _ _ b n h

/-- The location projection at (b, n, h). -/
theorem locT_apply (a1 : FVec Ideal S32x128x5 .f32) (a6 : FVec Ideal S5x128 .f32) (a7 : FVec Ideal S128 .f32)
    (b : Fin 32) (n : Fin 128) (h : Fin 128) :
    (Term.locT (F := Ideal) a1 a6 a7 : S32x128x128.Idx → EReal) (ix3 b n h) = Cert.Spec.loc a1 a6 a7 b n h := by
  unfold Term.locT Cert.Spec.loc
  rw [addf_apply]
  refine congrArg₂ (· + ·) ?_ ?_
  · exact dot_rows_apply _ none a1 a6 b n h
  · exact bias_apply a7 _ _ b n h

/-- RESULT 0 at `(b, n, h)`. -/
theorem nodeT_apply (a0 : FVec Ideal S32x128x2048 .f32) (a1 : FVec Ideal S32x128x5 .f32) (a4 : FVec Ideal S2048x128 .f32)
    (a5 : FVec Ideal S128 .f32) (a6 : FVec Ideal S5x128 .f32) (a7 : FVec Ideal S128 .f32)
    (b : Fin 32) (n : Fin 128) (h : Fin 128) :
    (Term.nodeT (F := Ideal) a0 a1 a4 a5 a6 a7 : S32x128x128.Idx → EReal) (ix3 b n h)
      = Cert.Spec.node a0 a1 a4 a5 a6 a7 b n h := by
  unfold Term.nodeT Cert.Spec.node
  rw [addf_apply, imgT_apply, locT_apply]

/-! ## Taking rows along the middle axis -/

section Rows
variable {α : Type}

/-- The dimension numbers of a take of rows along axis 1 of an [A, N, C] array at a column [E, 1] of start
    indices, with result [A, E, C]: the operand's axis 1 is collapsed and start-indexed, its axes 0 and 2 are the
    result's offset axes (whole slices), there are no batching axes, and the index vector lies on axis 1 of the
    start indices. -/
abbrev rowsDims (A N C E : Nat)
    (wf : GatherDims.WF ⟨3, ![A, N, C]⟩ ⟨2, ![E, 1]⟩ ⟨3, ![A, E, C]⟩ [0, 2] [1] [] [1] [] 1 ![A, 1, C]) :
    GatherDims ⟨3, ![A, N, C]⟩ ⟨2, ![E, 1]⟩ ⟨3, ![A, E, C]⟩ where
  offsetDims := [0, 2]
  collapsedSliceDims := [1]
  operandBatchingDims := []
  startIndicesBatchingDims := []
  startIndexMap := [1]
  indexVectorDim := 1
  sliceSizes := ![A, 1, C]
  wf := wf

/-- THE TAKE AT (a, e, c): the operand at (a, r, c), where the row r is start index e read signed and clamped into
    the N rows. -/
theorem gather_rows_apply {A N C E w : Nat} (hN : 0 < N)
    (wf : GatherDims.WF ⟨3, ![A, N, C]⟩ ⟨2, ![E, 1]⟩ ⟨3, ![A, E, C]⟩ [0, 2] [1] [] [1] [] 1 ![A, 1, C])
    (x : (⟨3, ![A, N, C]⟩ : Shape).Idx → α) (idx : IVec ⟨2, ![E, 1]⟩ w) (a : Fin A) (e : Fin E) (c : Fin C) :
    Host.gather (rowsDims A N C E wf) x idx (ix3 a e c)
      = x (ix3 a ⟨min (idx (ix2 e (0 : Fin 1))).toInt.toNat (N - 1), by omega⟩ c) := by
  unfold Host.gather
  congr 1
  funext ax
  refine Fin.ext ?_
  match ax with
  | ⟨0, _⟩ =>
    -- axis 0 is not start-indexed; its offset coordinate is the result's coordinate 0
    have hk : (0 : Fin 3) ∈ (rowsDims A N C E wf).sKept :=
      (GatherDims.mem_sKept _ _).2 ⟨(show ¬ (0 : Fin 3) ∈ ([1] : List (Fin 3)) by decide), List.not_mem_nil⟩
    show (rowsDims A N C E wf).start (ix3 a e c) idx 0 + (rowsDims A N C E wf).batchCoord (ix3 a e c) 0
      + (rowsDims A N C E wf).offCoord (ix3 a e c) 0 = a.val
    rw [GatherDims.batchCoord_eq_zero _ _ _ List.not_mem_nil]
    unfold GatherDims.start GatherDims.offCoord
    rw [dif_neg (show ¬ (0 : Fin 3) ∈ ([1] : List (Fin 3)) by decide), dif_pos hk]
    simp only [Nat.zero_add, Nat.add_zero]
    rfl
  | ⟨1, _⟩ =>
    -- axis 1 is collapsed: the clamped start index alone
    show (rowsDims A N C E wf).start (ix3 a e c) idx 1 + (rowsDims A N C E wf).batchCoord (ix3 a e c) 1
      + (rowsDims A N C E wf).offCoord (ix3 a e c) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims A N C E wf).startIndexMap from List.mem_singleton.mpr rfl)]
    have hsi : (rowsDims A N C E wf).siIdx (ix3 a e c) ⟨List.idxOf (1 : Fin 3) (rowsDims A N C E wf).startIndexMap,
        List.idxOf_lt_length_iff.2 (List.mem_singleton.mpr rfl)⟩ = ix2 e (0 : Fin 1) := by
      funext bx; refine Fin.ext ?_
      match bx with
      | ⟨0, _⟩ => rfl
      | ⟨1, _⟩ => rfl
    rw [hsi]
    rfl
  | ⟨2, _⟩ =>
    -- axis 2 is not start-indexed; its offset coordinate is the result's coordinate 2
    have hk : (2 : Fin 3) ∈ (rowsDims A N C E wf).sKept :=
      (GatherDims.mem_sKept _ _).2 ⟨(show ¬ (2 : Fin 3) ∈ ([1] : List (Fin 3)) by decide), List.not_mem_nil⟩
    show (rowsDims A N C E wf).start (ix3 a e c) idx 2 + (rowsDims A N C E wf).batchCoord (ix3 a e c) 2
      + (rowsDims A N C E wf).offCoord (ix3 a e c) 2 = c.val
    rw [GatherDims.batchCoord_eq_zero _ _ _ List.not_mem_nil]
    unfold GatherDims.start GatherDims.offCoord
    rw [dif_neg (show ¬ (2 : Fin 3) ∈ ([1] : List (Fin 3)) by decide), dif_pos hk]
    simp only [Nat.zero_add, Nat.add_zero]
    rfl

end Rows

/-! ## numpy's take for node numbers in range -/

/-- For a non-negative node number the wrap leaves the number as it is: the wrapped column at (e, 0) is the
    number of edge e. -/
theorem wrapCol_apply (idx : IVec S8192 32) (e : Fin 8192) (h0 : 0 ≤ (idx (ix1 e)).toInt) :
    Term.wrapCol idx (ix2 e (0 : Fin 1)) = idx (ix1 e) := by
  unfold Term.wrapCol
  refine (broadcastInDim_apply ![0] _ _ (ix2 e (0 : Fin 1)) (ix1 e) ?_).trans ?_
  · intro ax
    match ax with
    | ⟨0, _⟩ => rfl
  · show Scalar.select (IntOp.cmpi .slt (idx (ix1 e)) 0#32) (IntOp.addi (idx (ix1 e)) 128#32) (idx (ix1 e)) = idx (ix1 e)
    have hz : (0#32 : BitVec 32).toInt = 0 := by decide
    have hc : IntOp.cmpi .slt (idx (ix1 e)) 0#32 = 0#1 :=
      eq_zero_of_ne_one (fun h => by have := IntOp.cmpi_slt.1 h; rw [hz] at this; omega)
    rw [hc, select_zero]

/-- For node numbers in 0 … 127 the in-range mask is 1 at every edge. -/
theorem inRange_apply (idx : IVec S8192 32)
    (hidx : ∀ e : Fin 8192, 0 ≤ (idx (ix1 e)).toInt ∧ (idx (ix1 e)).toInt < 128) (e : Fin 8192) :
    Term.inRange idx (ix1 e) = 1#1 := by
  unfold Term.inRange
  refine Cert.LibWrapTake.reduce_andi_one_of_all _ _ _ _ (fun _ => rfl) ?_ (ix1 e)
  intro i
  obtain ⟨p, z, rfl⟩ : ∃ (p : Fin 8192) (z : Fin 1), i = ix2 p z := ⟨i 0, i 1, eq_ix2 i⟩
  obtain rfl : z = 0 := Subsingleton.elim _ _
  show IntOp.andi (IntOp.cmpi .sge (Term.wrapCol idx (ix2 p (0 : Fin 1))) 0#32)
      (IntOp.cmpi .sle (Term.wrapCol idx (ix2 p (0 : Fin 1))) 127#32) = 1#1
  rw [wrapCol_apply idx p (hidx p).1]
  have hz : (0#32 : BitVec 32).toInt = 0 := by decide
  have hm : (127#32 : BitVec 32).toInt = 127 := by decide
  refine IntOp.andi_eq_one.2 ⟨IntOp.cmpi_sge.2 ?_, IntOp.cmpi_sle.2 ?_⟩
  · rw [hz]; exact (hidx p).1
  · rw [hm]; have := (hidx p).2; omega

/-- numpy's `take` along axis 1 at node numbers in 0 … 127 reads the named row: no wrap, no fill. -/
theorem takeRows_apply (x : FVec Ideal S32x128x128 .f32) (idx : IVec S8192 32)
    (hidx : ∀ e : Fin 8192, 0 ≤ (idx (ix1 e)).toInt ∧ (idx (ix1 e)).toInt < 128)
    (b : Fin 32) (e : Fin 8192) (k : Fin 128) :
    (Term.takeRows (F := Ideal) x idx : S32x8192x128.Idx → EReal) (ix3 b e k)
      = x (ix3 b (Cert.Spec.rowOf (idx (ix1 e))) k) := by
  unfold Term.takeRows
  rw [select_apply]
  have hmask : broadcastInDim S32x8192x128 ![1] bcast_S8192_S32x8192x128_1 (Term.inRange idx) (ix3 b e k) = 1#1 := by
    refine (broadcastInDim_apply ![1] _ _ (ix3 b e k) (ix1 e) ?_).trans (inRange_apply idx hidx e)
    intro ax
    match ax with
    | ⟨0, _⟩ => rfl
  rw [hmask, select_one]
  refine (gather_rows_apply (A := 32) (N := 128) (C := 128) (E := 8192) (by decide) _ x (Term.wrapCol idx) b e k).trans ?_
  refine congrArg x ?_
  funext ax
  match ax with
  | ⟨0, _⟩ => rfl
  | ⟨1, _⟩ =>
    refine Fin.ext ?_
    show min (Term.wrapCol idx (ix2 e (0 : Fin 1))).toInt.toNat (128 - 1) = (Cert.Spec.rowOf (idx (ix1 e))).val
    rw [wrapCol_apply idx e (hidx e).1, Cert.Spec.rowOf_of_range _ (hidx e).1 (hidx e).2]
    have := (hidx e).1; have := (hidx e).2
    omega
  | ⟨2, _⟩ => rfl

/-! ## RESULT 1 -/

/-- RESULT 1 at `(b, e, k)`, for edge end points that are node numbers `0 … 127`. -/
theorem edgeT_apply (a0 : FVec Ideal S32x128x2048 .f32) (a2 a3 : IVec S8192 32) (a4 : FVec Ideal S2048x128 .f32)
    (a5 : FVec Ideal S128 .f32) (a8 : FVec Ideal S256x128 .f32) (a9 : FVec Ideal S128 .f32)
    (h2 : ∀ e : Fin 8192, 0 ≤ (a2 (ix1 e)).toInt ∧ (a2 (ix1 e)).toInt < 128)
    (h3 : ∀ e : Fin 8192, 0 ≤ (a3 (ix1 e)).toInt ∧ (a3 (ix1 e)).toInt < 128)
    (b : Fin 32) (e : Fin 8192) (k : Fin 128) :
    (Term.edgeT (F := Ideal) a0 a2 a3 a4 a5 a8 a9 : S32x8192x128.Idx → EReal) (ix3 b e k)
      = Cert.Spec.edge a0 a2 a3 a4 a5 a8 a9 b e k := by
  unfold Term.edgeT Cert.Spec.edge
  rw [addf_apply, addf_apply]
  refine congrArg₂ (· + ·) (congrArg₂ (· + ·) ?_ ?_) ?_
  · -- the sources' rows through the upper half of the weights
    refine (dot_rows_apply _ none _ _ b e k).trans ?_
    refine Finset.sum_congr rfl fun h _ => ?_
    rw [takeRows_apply _ a2 h2 b e h, imgT_apply]
    exact congrArg (_ * ·) (band_apply 0 a8 _ h k (⟨h.val, by omega⟩ : Fin 256) (by show h.val = 0 + h.val; omega))
  · -- the destinations' rows through the lower half
    refine (dot_rows_apply _ none _ _ b e k).trans ?_
    refine Finset.sum_congr rfl fun h _ => ?_
    rw [takeRows_apply _ a3 h3 b e h, imgT_apply]
    exact congrArg (_ * ·) (band_apply 128 a8 _ h k (⟨128 + h.val, by omega⟩ : Fin 256) rfl)
  · exact bias_apply a9 _ _ b e k

end Cert.ReferenceIdeal.Read

end
-- ==== Proof.lean ====
/-
  The certificate of the two-call Pallas program `forward` (node projections, then per-edge features)
  against its jnp `reference`, over the extended reals, for edge end points that are node numbers
  `0 ≤ · < 128`.

  Both programs compute, with `img[b,n,h] = Σ_q x[b,n,q]·Wi[q,h] + bi[h]`,

    node[b,n,h] = img[b,n,h] + (Σ_q l[b,n,q]·Wl[q,h] + bl[h])
    edge[b,e,k] = (Σ_h img[b, s e, h]·Wr[h,k] + Σ_h img[b, d e, h]·Wr[128+h,k]) + br[k]

  (`Spec.node`, `Spec.edge`). The kernel multiplies every node's `img` row by the two halves of `Wr` first
  and then picks the rows `s e`, `d e` with a 0/1 row times the table; the reference picks rows of `img`
  with `take` and multiplies afterwards. A 0/1 row times a table is one row of the table, and picking a row
  commutes with a product on the right: no finiteness is used. The two differ only outside `0 … 127`, where
  the kernel clamps a node number while `take` wraps a negative one and fills the rest: hence the range
  conjuncts of the precondition, which are used on the reference's side alone.

  The parts: `RunValues` (the kernel's run with its result buffers named), `Region0` / `Region1` (what each
  pallas_call leaves in its output arrays), `KValue` (those read back through the reshapes and slices to
  the arguments), `RefRun` / `RefValue` (the reference's run, and its results read at an index),
  `PreRange` (the precondition's range conjuncts read back).
-/
import proofs.«428156_j38482906972413_3_alg».proof.Defs
import proofs.«428156_j38482906972413_3_alg».proof.Proof.Gen.Kernel
import proofs.«428156_j38482906972413_3_alg».proof.Proof.Gen.Kernel.Skeleton
import proofs.«428156_j38482906972413_3_alg».proof.Proof.Gen.Kernel.Loops
import proofs.«428156_j38482906972413_3_alg».proof.Proof.Gen.Kernel.Launch
import proofs.«428156_j38482906972413_3_alg».proof.Proof.Gen.Kernel.Points
import proofs.«428156_j38482906972413_3_alg».proof.Proof.Gen.Kernel.Frame
import proofs.«428156_j38482906972413_3_alg».proof.Proof.Gen.KernelIdeal
import proofs.«428156_j38482906972413_3_alg».proof.Proof.Gen.KernelIdeal.Skeleton
import proofs.«428156_j38482906972413_3_alg».proof.Proof.Gen.KernelIdeal.Loops
import proofs.«428156_j38482906972413_3_alg».proof.Proof.Gen.KernelIdeal.Launch
import proofs.«428156_j38482906972413_3_alg».proof.Proof.Gen.KernelIdeal.Points
import proofs.«428156_j38482906972413_3_alg».proof.Proof.Gen.KernelIdeal.Frame
import proofs.«428156_j38482906972413_3_alg».proof.Proof.Gen.ReferenceIdeal
import proofs.«428156_j38482906972413_3_alg».proof.Proof.Gen.Pre_finite_inputs
import proofs.«428156_j38482906972413_3_alg».proof.Proof.Spec
import proofs.«428156_j38482906972413_3_alg».proof.Proof.RefTerm
import proofs.«428156_j38482906972413_3_alg».proof.Proof.RunValues
import proofs.«428156_j38482906972413_3_alg».proof.Proof.PreRange
import proofs.«428156_j38482906972413_3_alg».proof.Proof.KValue
import proofs.«428156_j38482906972413_3_alg».proof.Proof.RefRun
import proofs.«428156_j38482906972413_3_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel runs, faults nowhere and leaves its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- The same for the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the two results forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Hand.run_values (F := Ideal) m ρ)

/-- The two idealized programs end with equal results. The kernel's two result arrays are, entry by
    entry, `Spec.node` and `Spec.edge` of its arguments (for any node numbers: it clamps them); the
    reference's are the same two functions of its arguments where every edge end point is a node number
    `0 … 127`, which the precondition says; and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W4 m ρ c (Proc.devRef .tc Cert.KernelIdeal.main_v5),
    fun c => Cert.KernelIdeal.Gen.W4 m ρ c (Proc.devRef .tc Cert.KernelIdeal.main_v8),
    Cert.KernelIdeal.RunValues.run_W4 m ρ, ?_⟩
  refine (θ_run Cert.ReferenceIdeal.defs _ _).mono (fun r h c => ?_)
    (Cert.ReferenceIdeal.Hand.run_values (F := Ideal) m' ρ')
  obtain ⟨h8, h18, hargs⟩ := h c
  obtain ⟨e0, e1, e2, e3, e4, e5, e6, e7, e8, e9⟩ := hagree c
  obtain ⟨r2, r3⟩ := Cert.PreRange.range_of_pre _ _ _ _ _ _ _ _ _ _ (hpre c)
  refine ⟨h8.trans ?_, h18.trans ?_, hargs⟩
  · rw [e0, e1, e4, e5, e6, e7]
    funext i
    obtain ⟨b, n, h, rfl⟩ : ∃ (b : Fin 32) (n : Fin 128) (h : Fin 128), i = ix3 b n h := ⟨i 0, i 1, i 2, eq_ix3 i⟩
    exact (Cert.ReferenceIdeal.Read.nodeT_apply _ _ _ _ _ _ b n h).trans
      (Cert.KernelIdeal.KValue.result_node m ρ c b n h).symm
  · rw [e0, e2, e3, e4, e5, e8, e9]
    funext i
    obtain ⟨b, e, k, rfl⟩ : ∃ (b : Fin 32) (e : Fin 8192) (k : Fin 128), i = ix3 b e k := ⟨i 0, i 1, i 2, eq_ix3 i⟩
    exact (Cert.ReferenceIdeal.Read.edgeT_apply _ _ _ _ _ _ _ (fun e => r2 (ix1 e)) (fun e => r3 (ix1 e)) b e k).trans
      (Cert.KernelIdeal.KValue.result_edge m ρ c b e k).symm

/-- The certificate: the three frames, the (empty) idealization ledger, and the equal results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
